-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048x3 : Shape := ⟨3, ![8, 2048, 3]⟩
abbrev S8x2048 : Shape := ⟨2, ![8, 2048]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x512 .f32) (main_arg1 : FVec F S8x2048x3 .f32) (main_arg2 : FVec F S8x2048 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  main_v13
-- ==== Kernel.lean ====
abbrev S8x2048x512 : Shape := ⟨3, ![8, 2048, 512]⟩
abbrev S8x2048x3 : Shape := ⟨3, ![8, 2048, 3]⟩
abbrev S8x2048 : Shape := ⟨2, ![8, 2048]⟩
abbrev S8x2048x1 : Shape := ⟨3, ![8, 2048, 1]⟩
abbrev S128x1x128 : Shape := ⟨3, ![128, 1, 128]⟩
abbrev S1x128x512 : Shape := ⟨3, ![1, 128, 512]⟩
abbrev S1x2048x512 : Shape := ⟨3, ![1, 2048, 512]⟩
abbrev S1x128x3 : Shape := ⟨3, ![1, 128, 3]⟩
abbrev S1x2048x3 : Shape := ⟨3, ![1, 2048, 3]⟩
abbrev S1x128x1 : Shape := ⟨3, ![1, 128, 1]⟩
abbrev S1x2048x1 : Shape := ⟨3, ![1, 2048, 1]⟩
abbrev S1x1x128 : Shape := ⟨3, ![1, 1, 128]⟩
abbrev S128x512 : Shape := ⟨2, ![128, 512]⟩
abbrev S2048x512 : Shape := ⟨2, ![2048, 512]⟩
abbrev S128x3 : Shape := ⟨2, ![128, 3]⟩
abbrev S2048x3 : Shape := ⟨2, ![2048, 3]⟩
abbrev S128x1 : Shape := ⟨2, ![128, 1]⟩
abbrev S128 : Shape := ⟨1, ![128]⟩
abbrev S2048x1 : Shape := ⟨2, ![2048, 1]⟩
abbrev S2048 : Shape := ⟨1, ![2048]⟩
abbrev S128x2048 : Shape := ⟨2, ![128, 2048]⟩
abbrev S1x2048 : Shape := ⟨2, ![1, 2048]⟩
abbrev S1x128 : Shape := ⟨2, ![1, 128]⟩
abbrev S1 : Shape := ⟨1, ![1]⟩
abbrev S1x1 : Shape := ⟨2, ![1, 1]⟩
abbrev S128x1x1 : Shape := ⟨3, ![128, 1, 1]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S8x2048x3, .f32⟩
  | .hbm, ⟨2, _⟩ => ⟨S8x2048, .f32⟩
  | .hbm, ⟨3, _⟩ => ⟨S8x2048x1, .f32⟩
  | .hbm, ⟨4, _⟩ => ⟨S128x1x128, .f32⟩
  | .hbm, ⟨5, _⟩ => ⟨S128x1x1, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S128x1x1, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x128x512, .f32⟩
  | .local _ .vmem, ⟨1, _⟩ => ⟨S1x128x512, .f32⟩
  | .local _ .vmem, ⟨2, _⟩ => ⟨S1x2048x512, .f32⟩
  | .local _ .vmem, ⟨3, _⟩ => ⟨S1x2048x512, .f32⟩
  | .local _ .vmem, ⟨4, _⟩ => ⟨S1x128x3, .f32⟩
  | .local _ .vmem, ⟨5, _⟩ => ⟨S1x128x3, .f32⟩
  | .local _ .vmem, ⟨6, _⟩ => ⟨S1x2048x3, .f32⟩
  | .local _ .vmem, ⟨7, _⟩ => ⟨S1x2048x3, .f32⟩
  | .local _ .vmem, ⟨8, _⟩ => ⟨S1x128x1, .f32⟩
  | .local _ .vmem, ⟨9, _⟩ => ⟨S1x128x1, .f32⟩
  | .local _ .vmem, ⟨10, _⟩ => ⟨S1x2048x1, .f32⟩
  | .local _ .vmem, ⟨11, _⟩ => ⟨S1x2048x1, .f32⟩
  | .local _ .vmem, ⟨12, _⟩ => ⟨S1x1x128, .f32⟩
  | .local _ .vmem, ⟨13, _⟩ => ⟨S1x1x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S8x2048_S8x2048x1_0_1 : S8x2048.BroadcastsInDim S8x2048x1 (![0, 1] : Fin 2 → Fin S8x2048x1.rank)
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S128 : S128x1.ShapeCasts S128
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S2048 : S2048x1.ShapeCasts S2048
  reduces_S128x512_S128 : S128x512.Reduces [1] S128
  shapeCasts_S128_S128x1 : S128.ShapeCasts S128x1
  reduces_S2048x512_S2048 : S2048x512.Reduces [1] S2048
  shapeCasts_S2048_S2048x1 : S2048.ShapeCasts S2048x1
  broadcasts_S128x1_S128x512 : S128x1.Broadcasts S128x512
  broadcasts_S2048x1_S2048x512 : S2048x1.Broadcasts S2048x512
  bitsLt_bf16_f32 : FTy.bits .bf16 < FTy.bits .f32
  shapeCasts_S2048_S1x2048 : S2048.ShapeCasts S1x2048
  broadcasts_S128x1_S128x2048 : S128x1.Broadcasts S128x2048
  broadcasts_S1x2048_S128x2048 : S1x2048.Broadcasts S128x2048
  natLt_1_32 : 1 < 32
  reduces_S128x3_S128 : S128x3.Reduces [1] S128
  reduces_S2048x3_S2048 : S2048x3.Reduces [1] S2048
  reduces_S128x2048_S128 : S128x2048.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  iota_S1x1x128_d2_w32 : S1x1x128.Iotas .tc 32 [2]
  inb_S1x1x128_S1x1x128_0_0_0 : ∀ a, (![0, 0, 0] : Fin 3 → Nat) a + S1x1x128.size a ≤ S1x1x128.size a
  h_S1x1x128 : 0 < S1x1x128.numel
  slices_S128x1x128_S128x1x1_0_0_0 : S128x1x128.Slices ![0, 0, 0] S128x1x1
  shapeCasts_S128x1x1_S128 : S128x1x1.ShapeCasts S128
  reducesTo_S128_S_d0 : S128.ReducesTo [0] S_
  h_S_ : 0 < S_.numel
  slices_S128x1x128_S128x1x1_0_0_1 : S128x1x128.Slices ![0, 0, 1] S128x1x1
  dot_S128x512_S2048x512_S128x2048_1_1_0_0_n_n_wf : DotDims.WF S128x512 S2048x512 S128x2048 [1] [1] [0] [0] [] []
  dot_S128x3_S2048x3_S128x2048_1_1_0_0_n_n_wf : DotDims.WF S128x3 S2048x3 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x2048x512.size a
  hwx0_0 : ∀ i : grid0.Coords, EltTy.bits .f32 = 32 ∨ (Rect.block (s := S8x2048x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x3.size a ≤ S8x2048x3.size a
  hwx0_2 : ∀ i : grid0.Coords, EltTy.bits .f32 = 32 ∨ (Rect.block (s := S8x2048x3) S1x128x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x3.size a ≤ S8x2048x3.size a
  hwx0_3 : ∀ i : grid0.Coords, EltTy.bits .f32 = 32 ∨ (Rect.block (s := S8x2048x3) S1x2048x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S8x2048x1.size a
  hwx0_4 : ∀ i : grid0.Coords, EltTy.bits .f32 = 32 ∨ (Rect.block (s := S8x2048x1) S1x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x1.size a ≤ S8x2048x1.size a
  hwx0_5 : ∀ i : grid0.Coords, EltTy.bits .f32 = 32 ∨ (Rect.block (s := S8x2048x1) S1x2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S128x1x128.size a
  hwx0_6 : ∀ i : grid0.Coords, EltTy.bits .f32 = 32 ∨ (Rect.block (s := S128x1x128) S1x1x128.size (cc0_transform_6 i) (hinb0_6 i)).WholeWords (EltTy.packing .f32)

variable [Facts₀]

def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S128x3_S2048x3_S128x2048_1_1_0_0_n_n : DotDims S128x3 S2048x3 S128x2048 where
  lhsContracting := [1]
  rhsContracting := [1]
  lhsNonContracting := [0]
  rhsNonContracting := [0]
  lhsBatch := []
  rhsBatch := []
  wf := dot_S128x3_S2048x3_S128x2048_1_1_0_0_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x2048x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x3 : Shape := ⟨3, ![8, 2048, 3]⟩
abbrev S8x2048 : Shape := ⟨2, ![8, 2048]⟩
abbrev S_ : Shape := ⟨0, ![]⟩
abbrev S8x2048x1 : Shape := ⟨3, ![8, 2048, 1]⟩
abbrev S8x1x2048 : Shape := ⟨3, ![8, 1, 2048]⟩
abbrev S8x2048x2048 : Shape := ⟨3, ![8, 2048, 2048]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x3, .f32⟩
  | .hbm, ⟨2, _⟩ => ⟨S8x2048, .f32⟩
  | .hbm, ⟨3, _⟩ => ⟨S8x2048x512, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x512, .f32⟩
  | .hbm, ⟨12, _⟩ => ⟨S8x2048x512, .f32⟩
  | .hbm, ⟨13, _⟩ => ⟨S8x2048x512, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .i1⟩
  | .hbm, ⟨32, _⟩ => ⟨S_, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .i1⟩
  | .hbm, ⟨40, _⟩ => ⟨S8x2048x2048, .f32⟩
  | .hbm, ⟨41, _⟩ => ⟨S8x2048x2048, .f32⟩
  | .hbm, ⟨42, _⟩ => ⟨S8x2048x3, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S8x1x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048x2048, .f32⟩
  | .hbm, ⟨60, _⟩ => ⟨S8x2048x2048, .i1⟩
  | .hbm, ⟨61, _⟩ => ⟨S_, .f32⟩
  | .hbm, ⟨62, _⟩ => ⟨S_, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048x2048, .f32⟩
  | .hbm, ⟨68, _⟩ => ⟨S8x2048x2048, .i1⟩
  | .hbm, ⟨69, _⟩ => ⟨S8x2048x2048, .f32⟩
  | .hbm, ⟨70, _⟩ => ⟨S8x2048x2048, .f32⟩
  | .hbm, ⟨71, _⟩ => ⟨S_, .f32⟩
  | .hbm, ⟨72, _⟩ => ⟨S8x2048x2048, .f32⟩
  | .hbm, ⟨73, _⟩ => ⟨S8x2048x2048, .i1⟩
  | .hbm, ⟨74, _⟩ => ⟨S8x2048x2048, .f32⟩
  | .hbm, ⟨75, _⟩ => ⟨S_, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S8x1x2048, .f32⟩
  | .hbm, ⟨83, _⟩ => ⟨S8x2048x1, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_call2_v0 : Ref sig .tc := ⟨.hbm, 62, rfl⟩
abbrev main_call2_v1 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x3_S8x2048_d2 : S8x2048x3.ReducesTo [2] S8x2048
  reducesTo_S8x2048x2048_S_d0_1_2 : S8x2048x2048.ReducesTo [0, 1, 2] S_
  dot_S8x2048x512_S8x2048x512_S8x2048x2048_2_2_1_1_0_0_wf : DotDims.WF S8x2048x512 S8x2048x512 S8x2048x2048 [2] [2] [1] [1] [0] [0]
  dot_S8x2048x3_S8x2048x3_S8x2048x2048_2_2_1_1_0_0_wf : DotDims.WF S8x2048x3 S8x2048x3 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf

class Facts : Prop extends Facts₀ where

variable [Facts]
-- ==== Proof.PayloadBits.lean ====
/-
  What one grid point leaves in its output block, as one function of the six blocks it loads, and what the program
  makes of the 128 blocks afterwards.

  The body loads a tile of 128 query rows and all 2048 key rows of the embeddings, of the coordinates and of the mask,
  computes the masked neighbour loss of every (query, key) pair of the tile, sums it over the tile and, beside it, the
  mask products, and stores the two sums in lanes 0 and 1 of a 128-lane row whose other lanes are zero. After the call
  the program adds up lane 0 of the 128 rows, adds up lane 1, and divides the first total by the second plus a small
  constant.
-/
import proofs.«105830_j14474039787802_1_alg».proof.Proof.Gen.Kernel.Skeleton

noncomputable section

namespace Cert.Kernel.Hand

open Idealize.ShloMosaic Cert.Kernel Cert.Kernel.Gen

variable {F : FTy → Type} [FloatOps F]

/-- The stored row, from the loaded blocks: the query tile's and the keys' embeddings (`x0`, `x1`), coordinates
    (`x2`, `x3`) and masks (`x4`, `x5`). -/
def outv (x0 : Vec F S1x128x512 .f32) (x1 : Vec F S1x2048x512 .f32) (x2 : Vec F S1x128x3 .f32) (x3 : Vec F S1x2048x3 .f32)
    (x4 : Vec F S1x128x1 .f32) (x5 : Vec F S1x2048x1 .f32) : Vec F S1x1x128 .f32 :=
  k0_pay1 (k0_pay4 x4) (k0_pay5 x5) (k0_pay10 (k0_pay7 x1) (k0_pay8 x0 x1) (k0_pay9 x0))
    (k0_pay12 (k0_pay2 x2) (k0_pay3 x3)) (k0_pay13 (k0_pay2 x2) (k0_pay3 x3))

/-- The program's result from the array of the 128 stored rows: lane 0 summed over the rows, divided by lane 1 summed
    over the rows plus the constant. -/
def tailFn (o : (⟨S128x1x128, .f32⟩ : BufTy).Contents (Elt F)) : (⟨S_, .f32⟩ : BufTy).Contents (Elt F) :=
  Host.divf
    (Host.reduceAdd
      (shapeCast S128 (extractStridedSlice S128x1x1 ![0, 0, 0] o Facts₀.slices_S128x1x128_S128x1x1_0_0_0) Facts₀.shapeCasts_S128x1x1_S128)
      (constant S_ .f32 0x00000000#32) Facts₀.reducesTo_S128_S_d0 Facts₀.h_S_)
    (addf
      (Host.reduceAdd
        (shapeCast S128 (extractStridedSlice S128x1x1 ![0, 0, 1] o Facts₀.slices_S128x1x128_S128x1x1_0_0_1) Facts₀.shapeCasts_S128x1x1_S128)
        (constant S_ .f32 0x00000000#32) Facts₀.reducesTo_S128_S_d0 Facts₀.h_S_)
      (constant S_ .f32 0x322BCC77#32))

end Cert.Kernel.Hand

end
-- ==== Proof.BodyBits.lean ====
/-
  One grid point of the pairwise-distance kernel, for the frame: what the body does to its seven staging buffers.

  At grid point t = (b, j) the pipeline hands the body the query tile j of batch entry b — 128 rows of the embeddings,
  of the coordinates and of the mask column — and all 2048 key rows of the same batch entry, and a 128-lane output row.
  The body reads the six input blocks, computes, and overwrites the whole output row with one store; it keeps nothing
  between points. So after the body every input buffer holds the block it held before, and the output buffer holds the
  stored row (`outv` of the six blocks).
  The query tile and the keys are windows on ONE array each (the embeddings twice, the coordinates twice, the mask
  column twice): the two windows of an array each hold half of it (the left and the right half of the full share),
  which is enough to read it; only the output array is held whole.
-/
import proofs.«105830_j14474039787802_1_alg».proof.Proof.Gen.Kernel.Launch
import proofs.«105830_j14474039787802_1_alg».proof.Proof.Gen.Kernel.Skeleton
import proofs.«105830_j14474039787802_1_alg».proof.Proof.Gen.Kernel.Points
import proofs.«105830_j14474039787802_1_alg».proof.Proof.PayloadBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the one host operation before
    the region (the mask broadcast to a column). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each block whole -/

abbrev rQe : Rect S1x128x512 := Rect.unit (s := S1x128x512) ![0, 0, 0] S1x128x512.size inb_S1x128x512_S1x128x512_0_0_0
abbrev rKe : Rect S1x2048x512 := Rect.unit (s := S1x2048x512) ![0, 0, 0] S1x2048x512.size inb_S1x2048x512_S1x2048x512_0_0_0
abbrev rQc : Rect S1x128x3 := Rect.unit (s := S1x128x3) ![0, 0, 0] S1x128x3.size inb_S1x128x3_S1x128x3_0_0_0
abbrev rKc : Rect S1x2048x3 := Rect.unit (s := S1x2048x3) ![0, 0, 0] S1x2048x3.size inb_S1x2048x3_S1x2048x3_0_0_0
abbrev rQm : Rect S1x128x1 := Rect.unit (s := S1x128x1) ![0, 0, 0] S1x128x1.size inb_S1x128x1_S1x128x1_0_0_0
abbrev rKm : Rect S1x2048x1 := Rect.unit (s := S1x2048x1) ![0, 0, 0] S1x2048x1.size inb_S1x2048x1_S1x2048x1_0_0_0
abbrev rOut : Rect S1x1x128 := Rect.unit (s := S1x1x128) ![0, 0, 0] S1x1x128.size inb_S1x1x128_S1x1x128_0_0_0

/-- The output buffer after the body, from the six input blocks: its one store, over the whole row. -/
def out6 (x0 : Vec F S1x128x512 .f32) (x1 : Vec F S1x2048x512 .f32) (x2 : Vec F S1x128x3 .f32) (x3 : Vec F S1x2048x3 .f32)
    (x4 : Vec F S1x128x1 .f32) (x5 : Vec F S1x2048x1 .f32) : Vec F S1x1x128 .f32 :=
  View.canon [⟨rOut, outv (View.ld x0 rQe) (View.ld x1 rKe) (View.ld x2 rQc) (View.ld x3 rKc) (View.ld x4 rQm) (View.ld x5 rKm)⟩]

/-- The store covers the row. -/
theorem cover6 (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

/-! ## The body's triple -/

set_option maxHeartbeats 4000000 in
/-- On whole staging buffers — the six inputs at contents `x0 … x5`, the output at anything — the body runs to its end,
    leaves the inputs as they were and the output at `out6` of them. -/
theorem sound_kernel (c : Dev nD) (E : Set ℕ) (i : grid0.Coords)
    (a2 : Memref sig .tc .vmem S1x128x512 .f32) (h2 : a2.IsWhole) (a3 : Memref sig .tc .vmem S1x2048x512 .f32) (h3 : a3.IsWhole)
    (a4 : Memref sig .tc .vmem S1x128x3 .f32) (h4 : a4.IsWhole) (a5 : Memref sig .tc .vmem S1x2048x3 .f32) (h5 : a5.IsWhole)
    (a6 : Memref sig .tc .vmem S1x128x1 .f32) (h6 : a6.IsWhole) (a7 : Memref sig .tc .vmem S1x2048x1 .f32) (h7 : a7.IsWhole)
    (a8 : Memref sig .tc .vmem S1x1x128 .f32) (h8 : a8.IsWhole)
    (x0 : Vec F S1x128x512 .f32) (x1 : Vec F S1x2048x512 .f32) (x2 : Vec F S1x128x3 .f32) (x3 : Vec F S1x2048x3 .f32)
    (x4 : Vec F S1x128x1 .f32) (x5 : Vec F S1x2048x1 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (out6 x0 x1 x2 x3 x4 x5)) -∗ K ⟨⟩))
      ⊢ wp frame (wpE (defs₀ (F := F)) Variants.none c none) E (cc0__distance_kernel i a2 h2 a3 h3 a4 h4 a5 h5 a6 h6 a7 h7 a8 h8) K := by
  simp only [cc0__distance_kernel_eq_skeleton]; unfold cc0__distance_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

end Cert.Kernel.Hand

end
-- ==== Proof.DataBits.lean ====
/-
  The proof data of the pairwise-distance kernel's pipeline, and the body obligation.

  After the body at a point each input buffer holds its block of the array as the region found it, and the output buffer
  the stored row of those blocks. An input window's current buffer holds its block at EVERY point, fetched there or not:
  the key windows are fetched only when the batch entry changes, and between two fetches their block index does not move.
  Each array that two windows read is held half and half (the query window the left half of the share, the key window
  the right half); the output array whole.
-/
import proofs.«105830_j14474039787802_1_alg».proof.Proof.BodyBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's buffer holds its block, fetched at the point or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LaunchBits.lean ====
/-
  The launch of the pairwise-distance program: the host line before the region, the region, the host lines after it.

  The region's pipeline reads three arrays through two windows each. At the region's entry each such array, held whole,
  is split into the two halves of its share, one per window; an input array is never written, so at the region's exit the
  two halves hold the entry contents again and are joined back. With every buffer whole again the host lines after the
  region — which read only the output array — run as they would after any region, and the result is read off them.
-/
import proofs.«105830_j14474039787802_1_alg».proof.Proof.DataBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host lines, at the contents after the earlier one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays behind the windows: four buffers, seven windows -/

/-- The distinct buffers behind the windows' arrays, one by one. -/
theorem arrBufs_eq (c : Dev nD) (Vx : (b : Ref sig .tc) → Buf (Elt F) ((c : Thread nD τ).loc b)) :
    (Pipeline.arrBufs (Ix := Unit) (Name := ℕ) (U := UR sig nD τ) (Lvl := ℕ) spec0 c Vx : sProp 𝕄)
      = iprop((((c : Thread nD τ).loc main_arg0) ↦{fullShare} Vx main_arg0) ∗ (((c : Thread nD τ).loc main_arg1) ↦{fullShare} Vx main_arg1)
          ∗ (((c : Thread nD τ).loc main_v0) ↦{fullShare} Vx main_v0) ∗ (((c : Thread nD τ).loc main_v1) ↦{fullShare} Vx main_v1)) := by
  unfold Pipeline.arrBufs
  exact bigSep_eq_bigSepL_of_eq [main_arg0, main_arg1, main_v0, main_v1] (by decide) (by decide) _

/-- A buffer held whole is its two halves. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The share each window holds of its array. -/
theorem share_0 (c : Dev nD) : (dats m 0 c).share 0 = fullShare.left := by
  unfold Dat.share; rw [if_neg (by decide)]; dsimp only [dats]
theorem share_1 (c : Dev nD) : (dats m 0 c).share 1 = fullShare.right := by
  unfold Dat.share; rw [if_neg (by decide)]; dsimp only [dats]
theorem share_2 (c : Dev nD) : (dats m 0 c).share 2 = fullShare.left := by
  unfold Dat.share; rw [if_neg (by decide)]; dsimp only [dats]
theorem share_3 (c : Dev nD) : (dats m 0 c).share 3 = fullShare.right := by
  unfold Dat.share; rw [if_neg (by decide)]; dsimp only [dats]
theorem share_4 (c : Dev nD) : (dats m 0 c).share 4 = fullShare.left := by
  unfold Dat.share; rw [if_neg (by decide)]; dsimp only [dats]
theorem share_5 (c : Dev nD) : (dats m 0 c).share 5 = fullShare.right := by
  unfold Dat.share; rw [if_neg (by decide)]; dsimp only [dats]
theorem share_6 (c : Dev nD) : (dats m 0 c).share 6 = fullShare := by
  unfold Dat.share; rw [if_pos (by decide)]

/-- One window's array: a whole buffer, so its points-to is over every element. -/
theorem win_pt (c : Dev nD) (Fx : (w : Fin cfg0.W) → Buf (Elt F) ((cfg0.win w).arr.view.loc (c : Thread nD τ))) (w : Fin cfg0.W) :
    ((cfg0.win w).arr.view.loc (c : Thread nD τ) ↦[(cfg0.win w).arr.view.set]{(dats m 0 c).share w} Fx w : sProp 𝕄)
      = (((c : Thread nD τ).loc (Pipeline.arrRef spec0 w)) ↦{(dats m 0 c).share w} Fx w) := by
  rw [(arr_whole0 w).set_eq_univ]

/-- The pipeline's arrays, window by window, at the shares the proof data names. -/
theorem arrays_eq (c : Dev nD) (Fx : (w : Fin cfg0.W) → Buf (Elt F) ((cfg0.win w).arr.view.loc (c : Thread nD τ))) :
    ((dats m 0 c).arrays Fx : sProp 𝕄)
      = iprop((((c : Thread nD τ).loc main_arg0) ↦{fullShare.left} Fx 0) ∗ (((c : Thread nD τ).loc main_arg0) ↦{fullShare.right} Fx 1)
          ∗ (((c : Thread nD τ).loc main_arg1) ↦{fullShare.left} Fx 2) ∗ (((c : Thread nD τ).loc main_arg1) ↦{fullShare.right} Fx 3)
          ∗ (((c : Thread nD τ).loc main_v0) ↦{fullShare.left} Fx 4) ∗ (((c : Thread nD τ).loc main_v0) ↦{fullShare.right} Fx 5)
          ∗ (((c : Thread nD τ).loc main_v1) ↦{fullShare} Fx 6)) := by
  unfold Dat.arrays
  rw [bigSep_W0, win_pt m c Fx 0, win_pt m c Fx 1, win_pt m c Fx 2, win_pt m c Fx 3, win_pt m c Fx 4, win_pt m c Fx 5, win_pt m c Fx 6,
    share_0, share_1, share_2, share_3, share_4, share_5, share_6]

/-- The four buffers held whole at a valuation are the seven windows' arrays at contents that agree with it. -/
theorem arrays_iff (c : Dev nD) (Vx : (b : Ref sig .tc) → Buf (Elt F) ((c : Thread nD τ).loc b))
    (Fx : (w : Fin cfg0.W) → Buf (Elt F) ((cfg0.win w).arr.view.loc (c : Thread nD τ)))
    (hF : ∀ w, Fx w = Vx (Pipeline.arrRef spec0 w)) :
    (Pipeline.arrBufs (Ix := Unit) (Name := ℕ) (U := UR sig nD τ) (Lvl := ℕ) spec0 c Vx : sProp 𝕄) ⊣⊢ (dats m 0 c).arrays Fx := by
  rw [arrBufs_eq, arrays_eq, hF 0, hF 1, hF 2, hF 3, hF 4, hF 5, hF 6]
  constructor
  · iintro ⟨Ha, Hb, Hc, Hd⟩
    ihave Ha' := (halves (F := F) (Vx main_arg0)).1 $$ Ha
    icases Ha' with ⟨Ha1, Ha2⟩
    ihave Hb' := (halves (F := F) (Vx main_arg1)).1 $$ Hb
    icases Hb' with ⟨Hb1, Hb2⟩
    ihave Hc' := (halves (F := F) (Vx main_v0)).1 $$ Hc
    icases Hc' with ⟨Hc1, Hc2⟩
    isplitl [Ha1]; · iexact Ha1
    isplitl [Ha2]; · iexact Ha2
    isplitl [Hb1]; · iexact Hb1
    isplitl [Hb2]; · iexact Hb2
    isplitl [Hc1]; · iexact Hc1
    isplitl [Hc2]; · iexact Hc2
    iexact Hd
  · iintro ⟨Ha1, Ha2, Hb1, Hb2, Hc1, Hc2, Hd⟩
    isplitl [Ha1 Ha2]
    · iapply (halves (F := F) (Vx main_arg0)).2
      isplitl [Ha1]; · iexact Ha1
      iexact Ha2
    isplitl [Hb1 Hb2]
    · iapply (halves (F := F) (Vx main_arg1)).2
      isplitl [Hb1]; · iexact Hb1
      iexact Hb2
    isplitl [Hc1 Hc2]
    · iapply (halves (F := F) (Vx main_v0)).2
      isplitl [Hc1]; · iexact Hc1
      iexact Hc2
    iexact Hd

/-! ## The lines after the region -/

/-- They touch unscoped buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the pipeline (each writes only its own result buffer). -/
theorem sfx_keeps : ∀ op ∈ (List.flatten [hostOps1] : List (HloOp τ sig (Elt F))),
    ∀ w, Proc.devRef .tc (Pipeline.arrRef spec0 w) ∉ op.writes := by
  intro op hop
  simp only [hostOps1, List.flatten_cons, List.flatten_nil, List.append_nil, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The contents at the region's exit -/

/-- The buffers as the region leaves them: the output array at what the write-backs made of it, every other buffer as
    the region found it. -/
def Wx (c : Dev nD) : Valuation τ sig (Elt F) :=
  Function.update (V0 m c) (Proc.devRef .tc main_v1) ((dats m 0 c).arrAt 6 cfg0.N)

theorem Wx_out (c : Dev nD) : Wx m c (Proc.devRef .tc main_v1) = (dats m 0 c).arrAt 6 cfg0.N := by
  unfold Wx; exact Function.update_self ..

theorem Wx_of_ne (c : Dev nD) (b : Ref sig .tc) (h : b ≠ main_v1) : Wx m c (Proc.devRef .tc b) = V m c b := by
  unfold Wx; exact Function.update_of_ne (StableHlo.devRef_ne_of_ne h) _ _

/-- At the exit every window's array holds the exit contents of its buffer: an input array was never written. -/
theorem arrAt_exit (c : Dev nD) : ∀ w : Fin cfg0.W, (dats m 0 c).arrAt w cfg0.N = Wx m c (Proc.devRef .tc (Pipeline.arrRef spec0 w))
  | 0 => ((dats m 0 c).arrAt_in 0 rfl _).trans ((A_eq m c 0).trans (Wx_of_ne m c main_arg0 (by decide)).symm)
  | 1 => ((dats m 0 c).arrAt_in 1 rfl _).trans ((A_eq m c 1).trans (Wx_of_ne m c main_arg0 (by decide)).symm)
  | 2 => ((dats m 0 c).arrAt_in 2 rfl _).trans ((A_eq m c 2).trans (Wx_of_ne m c main_arg1 (by decide)).symm)
  | 3 => ((dats m 0 c).arrAt_in 3 rfl _).trans ((A_eq m c 3).trans (Wx_of_ne m c main_arg1 (by decide)).symm)
  | 4 => ((dats m 0 c).arrAt_in 4 rfl _).trans ((A_eq m c 4).trans (Wx_of_ne m c main_v0 (by decide)).symm)
  | 5 => ((dats m 0 c).arrAt_in 5 rfl _).trans ((A_eq m c 5).trans (Wx_of_ne m c main_v0 (by decide)).symm)
  | 6 => (Wx_out m c).symm
  | ⟨_ + 7, h⟩ => absurd h (Nat.not_lt.2 (Nat.le_add_left _ _))

/-- The later lines leave every array of the pipeline as it was. -/
theorem after_arr (c : Dev nD) (w : Fin cfg0.W) :
    StableHlo.after (List.flatten [hostOps1]) (Wx m c) (Proc.devRef .tc (Pipeline.arrRef spec0 w)) = Wx m c (Proc.devRef .tc (Pipeline.arrRef spec0 w)) :=
  StableHlo.after_of_forall_not_mem _ _ fun op hop => sfx_keeps op hop w

/-- A buffer that bypasses the region holds at the exit what it held at the entry. -/
theorem rest_congr (c : Dev nD) :
    (Pipeline.unscopedRest (Ix := Unit) (Name := ℕ) (U := UR sig nD τ) (Lvl := ℕ) spec0 c (V m c) : sProp 𝕄)
      = Pipeline.unscopedRest spec0 c (fun b => Wx m c (Proc.devRef .tc b)) := by
  unfold Pipeline.unscopedRest
  refine bigSep_congr fun b hb => ?_
  dsimp only
  rw [Wx_of_ne m c b fun e => (Finset.mem_sdiff.mp hb).2 (Finset.mem_image.mpr ⟨6, Finset.mem_univ _, e ▸ rfl⟩)]

/-- The lines after the region, from the region's exit: the boundary, the arrays at their exit contents (the shared ones in
    halves), the bypassing buffers at their entry contents. The halves are joined, the lines run within the unscoped
    buffers, and the arrays are split again. -/
theorem tail_run (𝒱₀ : Variants) (c : Dev nD) (Q' : PUnit → sProp 𝕄) :
    iprop((iprop((dats m 0 c).arrays ((dats m 0 c).arrAt · cfg0.N)
              ∗ Pipeline.unscopedRest spec0 c (fun b => StableHlo.after (List.flatten [hostOps1]) (Wx m c) (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c : Thread nD τ) none) Set.univ
          (Pipeline.chain [StableHlo.seq hostOps1]) Q' := by
  classical
  have hentry : iprop(((dats m 0 c).arrays ((dats m 0 c).arrAt · cfg0.N) : sProp 𝕄) ∗ Pipeline.unscopedRest spec0 c (V m c))
      ⊢ StableHlo.held (c : Thread nD τ) (Pipeline.ucRefs τ sig) (Wx m c) := by
    rw [← Pipeline.unscopedBufs_held (Ix := Unit) (Name := ℕ) (U := UR sig nD τ) (Lvl := ℕ) c (Wx m c),
      Pipeline.unscopedBufs_split₀ cfgs (0 : Fin 1) winFacts₀0.arr_unscoped c, rest_congr]
    iintro ⟨Ha, Hz⟩
    isplitl [Ha]
    · iapply (arrays_iff m c (fun b => Wx m c (Proc.devRef .tc b)) _ (arrAt_exit m c)).2; iexact Ha
    · iexact Hz
  have hexit : (StableHlo.held (c : Thread nD τ) (Pipeline.ucRefs τ sig) (StableHlo.after (List.flatten [hostOps1]) (Wx m c)) : sProp 𝕄)
      ⊢ iprop((dats m 0 c).arrays ((dats m 0 c).arrAt · cfg0.N)
          ∗ Pipeline.unscopedRest spec0 c (fun b => StableHlo.after (List.flatten [hostOps1]) (Wx m c) (Proc.devRef .tc b))) := by
    rw [← Pipeline.unscopedBufs_held (Ix := Unit) (Name := ℕ) (U := UR sig nD τ) (Lvl := ℕ) c (StableHlo.after (List.flatten [hostOps1]) (Wx m c)),
      Pipeline.unscopedBufs_split₀ cfgs (0 : Fin 1) winFacts₀0.arr_unscoped c]
    iintro ⟨Ha, Hz⟩
    isplitl [Ha]
    · iapply (arrays_iff m c (fun b => StableHlo.after (List.flatten [hostOps1]) (Wx m c) (Proc.devRef .tc b)) _
        (fun w => (arrAt_exit m c w).trans (after_arr m c w).symm)).1; iexact Ha
    · iexact Hz
  show _ ⊢ wp frame _ Set.univ (Pipeline.chain (([hostOps1] : List (List (HloOp τ sig (Elt F)))).map StableHlo.seq ++ [])) Q'
  iintro ⟨Hk, Hb, Ha, Hz⟩
  ihave Hh := hentry $$ [Ha Hz]
  · isplitl [Ha] <;> iassumption
  iapply (Pipeline.wp_seqs_then (pcfgs (F := F)) defs₀ 𝒱₀ c (Pipeline.ucRefs τ sig) [] [hostOps1] sfx_sub sfx_fresh (Wx m c)) $$ [Hb Hh]
  · isplitl [Hb] <;> iassumption
  iintro ⟨Hb, Hh⟩
  rw [Pipeline.chain_nil, wp_pure]
  imodintro
  iapply Hk
  iapply hexit; iexact Hh

/-! ## The arguments at the region's entry, and the result after the later lines -/

/-- The host line before the region writes none of the argument arrays. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne hb))

/-- After the later lines the result buffer holds the quotient of the lane sums of the output array. -/
theorem after_result (c : Dev nD) :
    StableHlo.after (List.flatten [hostOps1]) (Wx m c) (Proc.devRef .tc main_v9) = tailFn ((dats m 0 c).arrAt 6 cfg0.N) := by
  rw [← Wx_out m c]
  simp only [List.flatten_cons, List.flatten_nil, List.append_nil]
  after_results
  rfl

/-- The later lines do not write the mask. -/
theorem after_mask (c : Dev nD) :
    StableHlo.after (List.flatten [hostOps1]) (Wx m c) (Proc.devRef .tc main_arg2) = m ((c : Thread nD τ).loc main_arg2) := by
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Wx_of_ne m c main_arg2 (by decide)]
  exact V_arg m c main_arg2 (by decide)

/-! ## The run -/

set_option backward.isDefEq.respectTransparency.types false in
/-- From any memory with zero counters every weakly fair execution of @main terminates; at the end the result buffer
    holds the quotient of the lane sums of the array of stored rows, and the three arguments are as launched. -/
theorem run_main : θ_run defs (onTc (τ := τ) (main (F := F))) (s₀ m ρ) (fun r => ∀ c : Dev nD,
      r.2.mem ((c.tc : Thread nD τ).loc main_v9) = tailFn ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (pcfgs (F := F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c) _ (fun w => A_eq m c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after (List.flatten [hostOps1]) (Wx m c) (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail_run m Variants.none c Q')
    (QY := fun c s => ∀ b ∈ Pipeline.restRefsP sig Pipeline.Prefetch.none spec0,
      s.mem ((c.tc : Thread nD τ).loc b) = StableHlo.after (List.flatten [hostOps1]) (Wx m c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after (List.flatten [hostOps1]) (Wx m c) (Proc.devRef .tc b)) s')
      isplitl [HU] <;> iassumption)
    (hQ := fun s h c => by
      have hrest : ∀ b : Ref sig .tc, b.isScoped = false → (∀ w, (spec0 w).arr.view.ref ≠ b) →
          s.mem ((c.tc : Thread nD τ).loc b) = StableHlo.after (List.flatten [hostOps1]) (Wx m c) (Proc.devRef .tc b) := fun b hs ha =>
        (h c).2.2 b (Finset.mem_sdiff.mpr ⟨Pipeline.mem_restRefs_of b hs ha, fun hk => by
          obtain ⟨k, -, -⟩ := Finset.mem_image.mp hk; exact k.elim0⟩)
      refine ⟨?_, ?_, ?_, ?_⟩
      · exact (hrest main_v9 (by decide) (by decide)).trans (after_result m c)
      · exact ((h c).1 0).trans (((dats m 0 c).arrAt_in 0 rfl _).trans ((A_eq m c 0).trans (V_arg m c main_arg0 (by decide))))
      · exact ((h c).1 2).trans (((dats m 0 c).arrAt_in 2 rfl _).trans ((A_eq m c 2).trans (V_arg m c main_arg1 (by decide))))
      · exact (hrest main_arg2 (by decide) (by decide)).trans (after_mask m c))

end Cert.Kernel.Hand

end
-- ==== Proof.PayloadIdeal.lean ====
/-
  What one grid point leaves in its output block, as one function of the six blocks it loads, and what the program
  makes of the 128 blocks afterwards.

  The body loads a tile of 128 query rows and all 2048 key rows of the embeddings, of the coordinates and of the mask,
  computes the masked neighbour loss of every (query, key) pair of the tile, sums it over the tile and, beside it, the
  mask products, and stores the two sums in lanes 0 and 1 of a 128-lane row whose other lanes are zero. After the call
  the program adds up lane 0 of the 128 rows, adds up lane 1, and divides the first total by the second plus a small
  constant.
-/
import proofs.«105830_j14474039787802_1_alg».proof.Proof.Gen.KernelIdeal.Skeleton

noncomputable section

namespace Cert.KernelIdeal.Hand

open Idealize.ShloMosaic Cert.KernelIdeal Cert.KernelIdeal.Gen

variable {F : FTy → Type} [FloatOps F]

/-- The stored row, from the loaded blocks: the query tile's and the keys' embeddings (`x0`, `x1`), coordinates
    (`x2`, `x3`) and masks (`x4`, `x5`). -/
def outv (x0 : Vec F S1x128x512 .f32) (x1 : Vec F S1x2048x512 .f32) (x2 : Vec F S1x128x3 .f32) (x3 : Vec F S1x2048x3 .f32)
    (x4 : Vec F S1x128x1 .f32) (x5 : Vec F S1x2048x1 .f32) : Vec F S1x1x128 .f32 :=
  k0_pay1 (k0_pay4 x4) (k0_pay5 x5) (k0_pay10 (k0_pay7 x1) (k0_pay8 x0 x1) (k0_pay9 x0))
    (k0_pay12 (k0_pay2 x2) (k0_pay3 x3)) (k0_pay13 (k0_pay2 x2) (k0_pay3 x3))

/-- The program's result from the array of the 128 stored rows: lane 0 summed over the rows, divided by lane 1 summed
    over the rows plus the constant. -/
def tailFn (o : (⟨S128x1x128, .f32⟩ : BufTy).Contents (Elt F)) : (⟨S_, .f32⟩ : BufTy).Contents (Elt F) :=
  Host.divf
    (Host.reduceAdd
      (shapeCast S128 (extractStridedSlice S128x1x1 ![0, 0, 0] o Facts₀.slices_S128x1x128_S128x1x1_0_0_0) Facts₀.shapeCasts_S128x1x1_S128)
      (constant S_ .f32 0x00000000#32) Facts₀.reducesTo_S128_S_d0 Facts₀.h_S_)
    (addf
      (Host.reduceAdd
        (shapeCast S128 (extractStridedSlice S128x1x1 ![0, 0, 1] o Facts₀.slices_S128x1x128_S128x1x1_0_0_1) Facts₀.shapeCasts_S128x1x1_S128)
        (constant S_ .f32 0x00000000#32) Facts₀.reducesTo_S128_S_d0 Facts₀.h_S_)
      (constant S_ .f32 0x322BCC77#32))

end Cert.KernelIdeal.Hand

end
-- ==== Proof.BodyIdeal.lean ====
/-
  One grid point of the pairwise-distance kernel, for the frame: what the body does to its seven staging buffers.

  At grid point t = (b, j) the pipeline hands the body the query tile j of batch entry b — 128 rows of the embeddings,
  of the coordinates and of the mask column — and all 2048 key rows of the same batch entry, and a 128-lane output row.
  The body reads the six input blocks, computes, and overwrites the whole output row with one store; it keeps nothing
  between points. So after the body every input buffer holds the block it held before, and the output buffer holds the
  stored row (`outv` of the six blocks).
  The query tile and the keys are windows on ONE array each (the embeddings twice, the coordinates twice, the mask
  column twice): the two windows of an array each hold half of it (the left and the right half of the full share),
  which is enough to read it; only the output array is held whole.
-/
import proofs.«105830_j14474039787802_1_alg».proof.Proof.Gen.KernelIdeal.Launch
import proofs.«105830_j14474039787802_1_alg».proof.Proof.Gen.KernelIdeal.Skeleton
import proofs.«105830_j14474039787802_1_alg».proof.Proof.Gen.KernelIdeal.Points
import proofs.«105830_j14474039787802_1_alg».proof.Proof.PayloadIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the one host operation before
    the region (the mask broadcast to a column). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each block whole -/

abbrev rQe : Rect S1x128x512 := Rect.unit (s := S1x128x512) ![0, 0, 0] S1x128x512.size inb_S1x128x512_S1x128x512_0_0_0
abbrev rKe : Rect S1x2048x512 := Rect.unit (s := S1x2048x512) ![0, 0, 0] S1x2048x512.size inb_S1x2048x512_S1x2048x512_0_0_0
abbrev rQc : Rect S1x128x3 := Rect.unit (s := S1x128x3) ![0, 0, 0] S1x128x3.size inb_S1x128x3_S1x128x3_0_0_0
abbrev rKc : Rect S1x2048x3 := Rect.unit (s := S1x2048x3) ![0, 0, 0] S1x2048x3.size inb_S1x2048x3_S1x2048x3_0_0_0
abbrev rQm : Rect S1x128x1 := Rect.unit (s := S1x128x1) ![0, 0, 0] S1x128x1.size inb_S1x128x1_S1x128x1_0_0_0
abbrev rKm : Rect S1x2048x1 := Rect.unit (s := S1x2048x1) ![0, 0, 0] S1x2048x1.size inb_S1x2048x1_S1x2048x1_0_0_0
abbrev rOut : Rect S1x1x128 := Rect.unit (s := S1x1x128) ![0, 0, 0] S1x1x128.size inb_S1x1x128_S1x1x128_0_0_0

/-- The output buffer after the body, from the six input blocks: its one store, over the whole row. -/
def out6 (x0 : Vec F S1x128x512 .f32) (x1 : Vec F S1x2048x512 .f32) (x2 : Vec F S1x128x3 .f32) (x3 : Vec F S1x2048x3 .f32)
    (x4 : Vec F S1x128x1 .f32) (x5 : Vec F S1x2048x1 .f32) : Vec F S1x1x128 .f32 :=
  View.canon [⟨rOut, outv (View.ld x0 rQe) (View.ld x1 rKe) (View.ld x2 rQc) (View.ld x3 rKc) (View.ld x4 rQm) (View.ld x5 rKm)⟩]

/-- The store covers the row. -/
theorem cover6 (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

/-! ## The body's triple -/

set_option maxHeartbeats 4000000 in
/-- On whole staging buffers — the six inputs at contents `x0 … x5`, the output at anything — the body runs to its end,
    leaves the inputs as they were and the output at `out6` of them. -/
theorem sound_kernel (c : Dev nD) (E : Set ℕ) (i : grid0.Coords)
    (a2 : Memref sig .tc .vmem S1x128x512 .f32) (h2 : a2.IsWhole) (a3 : Memref sig .tc .vmem S1x2048x512 .f32) (h3 : a3.IsWhole)
    (a4 : Memref sig .tc .vmem S1x128x3 .f32) (h4 : a4.IsWhole) (a5 : Memref sig .tc .vmem S1x2048x3 .f32) (h5 : a5.IsWhole)
    (a6 : Memref sig .tc .vmem S1x128x1 .f32) (h6 : a6.IsWhole) (a7 : Memref sig .tc .vmem S1x2048x1 .f32) (h7 : a7.IsWhole)
    (a8 : Memref sig .tc .vmem S1x1x128 .f32) (h8 : a8.IsWhole)
    (x0 : Vec F S1x128x512 .f32) (x1 : Vec F S1x2048x512 .f32) (x2 : Vec F S1x128x3 .f32) (x3 : Vec F S1x2048x3 .f32)
    (x4 : Vec F S1x128x1 .f32) (x5 : Vec F S1x2048x1 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (out6 x0 x1 x2 x3 x4 x5)) -∗ K ⟨⟩))
      ⊢ wp frame (wpE (defs₀ (F := F)) Variants.none c none) E (cc0__distance_kernel i a2 h2 a3 h3 a4 h4 a5 h5 a6 h6 a7 h7 a8 h8) K := by
  simp only [cc0__distance_kernel_eq_skeleton]; unfold cc0__distance_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

end Cert.KernelIdeal.Hand

end
-- ==== Proof.DataIdeal.lean ====
/-
  The proof data of the pairwise-distance kernel's pipeline, and the body obligation.

  After the body at a point each input buffer holds its block of the array as the region found it, and the output buffer
  the stored row of those blocks. An input window's current buffer holds its block at EVERY point, fetched there or not:
  the key windows are fetched only when the batch entry changes, and between two fetches their block index does not move.
  Each array that two windows read is held half and half (the query window the left half of the share, the key window
  the right half); the output array whole.
-/
import proofs.«105830_j14474039787802_1_alg».proof.Proof.BodyIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input window's buffer holds its block, fetched at the point or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.LaunchIdeal.lean ====
/-
  The launch of the pairwise-distance program: the host line before the region, the region, the host lines after it.

  The region's pipeline reads three arrays through two windows each. At the region's entry each such array, held whole,
  is split into the two halves of its share, one per window; an input array is never written, so at the region's exit the
  two halves hold the entry contents again and are joined back. With every buffer whole again the host lines after the
  region — which read only the output array — run as they would after any region, and the result is read off them.
-/
import proofs.«105830_j14474039787802_1_alg».proof.Proof.DataIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host lines, at the contents after the earlier one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The arrays behind the windows: four buffers, seven windows -/

/-- The distinct buffers behind the windows' arrays, one by one. -/
theorem arrBufs_eq (c : Dev nD) (Vx : (b : Ref sig .tc) → Buf (Elt F) ((c : Thread nD τ).loc b)) :
    (Pipeline.arrBufs (Ix := Unit) (Name := ℕ) (U := UR sig nD τ) (Lvl := ℕ) spec0 c Vx : sProp 𝕄)
      = iprop((((c : Thread nD τ).loc main_arg0) ↦{fullShare} Vx main_arg0) ∗ (((c : Thread nD τ).loc main_arg1) ↦{fullShare} Vx main_arg1)
          ∗ (((c : Thread nD τ).loc main_v0) ↦{fullShare} Vx main_v0) ∗ (((c : Thread nD τ).loc main_v1) ↦{fullShare} Vx main_v1)) := by
  unfold Pipeline.arrBufs
  exact bigSep_eq_bigSepL_of_eq [main_arg0, main_arg1, main_v0, main_v1] (by decide) (by decide) _

/-- A buffer held whole is its two halves. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The share each window holds of its array. -/
theorem share_0 (c : Dev nD) : (dats m 0 c).share 0 = fullShare.left := by
  unfold Dat.share; rw [if_neg (by decide)]; dsimp only [dats]
theorem share_1 (c : Dev nD) : (dats m 0 c).share 1 = fullShare.right := by
  unfold Dat.share; rw [if_neg (by decide)]; dsimp only [dats]
theorem share_2 (c : Dev nD) : (dats m 0 c).share 2 = fullShare.left := by
  unfold Dat.share; rw [if_neg (by decide)]; dsimp only [dats]
theorem share_3 (c : Dev nD) : (dats m 0 c).share 3 = fullShare.right := by
  unfold Dat.share; rw [if_neg (by decide)]; dsimp only [dats]
theorem share_4 (c : Dev nD) : (dats m 0 c).share 4 = fullShare.left := by
  unfold Dat.share; rw [if_neg (by decide)]; dsimp only [dats]
theorem share_5 (c : Dev nD) : (dats m 0 c).share 5 = fullShare.right := by
  unfold Dat.share; rw [if_neg (by decide)]; dsimp only [dats]
theorem share_6 (c : Dev nD) : (dats m 0 c).share 6 = fullShare := by
  unfold Dat.share; rw [if_pos (by decide)]

/-- One window's array: a whole buffer, so its points-to is over every element. -/
theorem win_pt (c : Dev nD) (Fx : (w : Fin cfg0.W) → Buf (Elt F) ((cfg0.win w).arr.view.loc (c : Thread nD τ))) (w : Fin cfg0.W) :
    ((cfg0.win w).arr.view.loc (c : Thread nD τ) ↦[(cfg0.win w).arr.view.set]{(dats m 0 c).share w} Fx w : sProp 𝕄)
      = (((c : Thread nD τ).loc (Pipeline.arrRef spec0 w)) ↦{(dats m 0 c).share w} Fx w) := by
  rw [(arr_whole0 w).set_eq_univ]

/-- The pipeline's arrays, window by window, at the shares the proof data names. -/
theorem arrays_eq (c : Dev nD) (Fx : (w : Fin cfg0.W) → Buf (Elt F) ((cfg0.win w).arr.view.loc (c : Thread nD τ))) :
    ((dats m 0 c).arrays Fx : sProp 𝕄)
      = iprop((((c : Thread nD τ).loc main_arg0) ↦{fullShare.left} Fx 0) ∗ (((c : Thread nD τ).loc main_arg0) ↦{fullShare.right} Fx 1)
          ∗ (((c : Thread nD τ).loc main_arg1) ↦{fullShare.left} Fx 2) ∗ (((c : Thread nD τ).loc main_arg1) ↦{fullShare.right} Fx 3)
          ∗ (((c : Thread nD τ).loc main_v0) ↦{fullShare.left} Fx 4) ∗ (((c : Thread nD τ).loc main_v0) ↦{fullShare.right} Fx 5)
          ∗ (((c : Thread nD τ).loc main_v1) ↦{fullShare} Fx 6)) := by
  unfold Dat.arrays
  rw [bigSep_W0, win_pt m c Fx 0, win_pt m c Fx 1, win_pt m c Fx 2, win_pt m c Fx 3, win_pt m c Fx 4, win_pt m c Fx 5, win_pt m c Fx 6,
    share_0, share_1, share_2, share_3, share_4, share_5, share_6]

/-- The four buffers held whole at a valuation are the seven windows' arrays at contents that agree with it. -/
theorem arrays_iff (c : Dev nD) (Vx : (b : Ref sig .tc) → Buf (Elt F) ((c : Thread nD τ).loc b))
    (Fx : (w : Fin cfg0.W) → Buf (Elt F) ((cfg0.win w).arr.view.loc (c : Thread nD τ)))
    (hF : ∀ w, Fx w = Vx (Pipeline.arrRef spec0 w)) :
    (Pipeline.arrBufs (Ix := Unit) (Name := ℕ) (U := UR sig nD τ) (Lvl := ℕ) spec0 c Vx : sProp 𝕄) ⊣⊢ (dats m 0 c).arrays Fx := by
  rw [arrBufs_eq, arrays_eq, hF 0, hF 1, hF 2, hF 3, hF 4, hF 5, hF 6]
  constructor
  · iintro ⟨Ha, Hb, Hc, Hd⟩
    ihave Ha' := (halves (F := F) (Vx main_arg0)).1 $$ Ha
    icases Ha' with ⟨Ha1, Ha2⟩
    ihave Hb' := (halves (F := F) (Vx main_arg1)).1 $$ Hb
    icases Hb' with ⟨Hb1, Hb2⟩
    ihave Hc' := (halves (F := F) (Vx main_v0)).1 $$ Hc
    icases Hc' with ⟨Hc1, Hc2⟩
    isplitl [Ha1]; · iexact Ha1
    isplitl [Ha2]; · iexact Ha2
    isplitl [Hb1]; · iexact Hb1
    isplitl [Hb2]; · iexact Hb2
    isplitl [Hc1]; · iexact Hc1
    isplitl [Hc2]; · iexact Hc2
    iexact Hd
  · iintro ⟨Ha1, Ha2, Hb1, Hb2, Hc1, Hc2, Hd⟩
    isplitl [Ha1 Ha2]
    · iapply (halves (F := F) (Vx main_arg0)).2
      isplitl [Ha1]; · iexact Ha1
      iexact Ha2
    isplitl [Hb1 Hb2]
    · iapply (halves (F := F) (Vx main_arg1)).2
      isplitl [Hb1]; · iexact Hb1
      iexact Hb2
    isplitl [Hc1 Hc2]
    · iapply (halves (F := F) (Vx main_v0)).2
      isplitl [Hc1]; · iexact Hc1
      iexact Hc2
    iexact Hd

/-! ## The lines after the region -/

/-- They touch unscoped buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the pipeline (each writes only its own result buffer). -/
theorem sfx_keeps : ∀ op ∈ (List.flatten [hostOps1] : List (HloOp τ sig (Elt F))),
    ∀ w, Proc.devRef .tc (Pipeline.arrRef spec0 w) ∉ op.writes := by
  intro op hop
  simp only [hostOps1, List.flatten_cons, List.flatten_nil, List.append_nil, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The contents at the region's exit -/

/-- The buffers as the region leaves them: the output array at what the write-backs made of it, every other buffer as
    the region found it. -/
def Wx (c : Dev nD) : Valuation τ sig (Elt F) :=
  Function.update (V0 m c) (Proc.devRef .tc main_v1) ((dats m 0 c).arrAt 6 cfg0.N)

theorem Wx_out (c : Dev nD) : Wx m c (Proc.devRef .tc main_v1) = (dats m 0 c).arrAt 6 cfg0.N := by
  unfold Wx; exact Function.update_self ..

theorem Wx_of_ne (c : Dev nD) (b : Ref sig .tc) (h : b ≠ main_v1) : Wx m c (Proc.devRef .tc b) = V m c b := by
  unfold Wx; exact Function.update_of_ne (StableHlo.devRef_ne_of_ne h) _ _

/-- At the exit every window's array holds the exit contents of its buffer: an input array was never written. -/
theorem arrAt_exit (c : Dev nD) : ∀ w : Fin cfg0.W, (dats m 0 c).arrAt w cfg0.N = Wx m c (Proc.devRef .tc (Pipeline.arrRef spec0 w))
  | 0 => ((dats m 0 c).arrAt_in 0 rfl _).trans ((A_eq m c 0).trans (Wx_of_ne m c main_arg0 (by decide)).symm)
  | 1 => ((dats m 0 c).arrAt_in 1 rfl _).trans ((A_eq m c 1).trans (Wx_of_ne m c main_arg0 (by decide)).symm)
  | 2 => ((dats m 0 c).arrAt_in 2 rfl _).trans ((A_eq m c 2).trans (Wx_of_ne m c main_arg1 (by decide)).symm)
  | 3 => ((dats m 0 c).arrAt_in 3 rfl _).trans ((A_eq m c 3).trans (Wx_of_ne m c main_arg1 (by decide)).symm)
  | 4 => ((dats m 0 c).arrAt_in 4 rfl _).trans ((A_eq m c 4).trans (Wx_of_ne m c main_v0 (by decide)).symm)
  | 5 => ((dats m 0 c).arrAt_in 5 rfl _).trans ((A_eq m c 5).trans (Wx_of_ne m c main_v0 (by decide)).symm)
  | 6 => (Wx_out m c).symm
  | ⟨_ + 7, h⟩ => absurd h (Nat.not_lt.2 (Nat.le_add_left _ _))

/-- The later lines leave every array of the pipeline as it was. -/
theorem after_arr (c : Dev nD) (w : Fin cfg0.W) :
    StableHlo.after (List.flatten [hostOps1]) (Wx m c) (Proc.devRef .tc (Pipeline.arrRef spec0 w)) = Wx m c (Proc.devRef .tc (Pipeline.arrRef spec0 w)) :=
  StableHlo.after_of_forall_not_mem _ _ fun op hop => sfx_keeps op hop w

/-- A buffer that bypasses the region holds at the exit what it held at the entry. -/
theorem rest_congr (c : Dev nD) :
    (Pipeline.unscopedRest (Ix := Unit) (Name := ℕ) (U := UR sig nD τ) (Lvl := ℕ) spec0 c (V m c) : sProp 𝕄)
      = Pipeline.unscopedRest spec0 c (fun b => Wx m c (Proc.devRef .tc b)) := by
  unfold Pipeline.unscopedRest
  refine bigSep_congr fun b hb => ?_
  dsimp only
  rw [Wx_of_ne m c b fun e => (Finset.mem_sdiff.mp hb).2 (Finset.mem_image.mpr ⟨6, Finset.mem_univ _, e ▸ rfl⟩)]

/-- The lines after the region, from the region's exit: the boundary, the arrays at their exit contents (the shared ones in
    halves), the bypassing buffers at their entry contents. The halves are joined, the lines run within the unscoped
    buffers, and the arrays are split again. -/
theorem tail_run (𝒱₀ : Variants) (c : Dev nD) (Q' : PUnit → sProp 𝕄) :
    iprop((iprop((dats m 0 c).arrays ((dats m 0 c).arrAt · cfg0.N)
              ∗ Pipeline.unscopedRest spec0 c (fun b => StableHlo.after (List.flatten [hostOps1]) (Wx m c) (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c : Thread nD τ) none) Set.univ
          (Pipeline.chain [StableHlo.seq hostOps1]) Q' := by
  classical
  have hentry : iprop(((dats m 0 c).arrays ((dats m 0 c).arrAt · cfg0.N) : sProp 𝕄) ∗ Pipeline.unscopedRest spec0 c (V m c))
      ⊢ StableHlo.held (c : Thread nD τ) (Pipeline.ucRefs τ sig) (Wx m c) := by
    rw [← Pipeline.unscopedBufs_held (Ix := Unit) (Name := ℕ) (U := UR sig nD τ) (Lvl := ℕ) c (Wx m c),
      Pipeline.unscopedBufs_split₀ cfgs (0 : Fin 1) winFacts₀0.arr_unscoped c, rest_congr]
    iintro ⟨Ha, Hz⟩
    isplitl [Ha]
    · iapply (arrays_iff m c (fun b => Wx m c (Proc.devRef .tc b)) _ (arrAt_exit m c)).2; iexact Ha
    · iexact Hz
  have hexit : (StableHlo.held (c : Thread nD τ) (Pipeline.ucRefs τ sig) (StableHlo.after (List.flatten [hostOps1]) (Wx m c)) : sProp 𝕄)
      ⊢ iprop((dats m 0 c).arrays ((dats m 0 c).arrAt · cfg0.N)
          ∗ Pipeline.unscopedRest spec0 c (fun b => StableHlo.after (List.flatten [hostOps1]) (Wx m c) (Proc.devRef .tc b))) := by
    rw [← Pipeline.unscopedBufs_held (Ix := Unit) (Name := ℕ) (U := UR sig nD τ) (Lvl := ℕ) c (StableHlo.after (List.flatten [hostOps1]) (Wx m c)),
      Pipeline.unscopedBufs_split₀ cfgs (0 : Fin 1) winFacts₀0.arr_unscoped c]
    iintro ⟨Ha, Hz⟩
    isplitl [Ha]
    · iapply (arrays_iff m c (fun b => StableHlo.after (List.flatten [hostOps1]) (Wx m c) (Proc.devRef .tc b)) _
        (fun w => (arrAt_exit m c w).trans (after_arr m c w).symm)).1; iexact Ha
    · iexact Hz
  show _ ⊢ wp frame _ Set.univ (Pipeline.chain (([hostOps1] : List (List (HloOp τ sig (Elt F)))).map StableHlo.seq ++ [])) Q'
  iintro ⟨Hk, Hb, Ha, Hz⟩
  ihave Hh := hentry $$ [Ha Hz]
  · isplitl [Ha] <;> iassumption
  iapply (Pipeline.wp_seqs_then (pcfgs (F := F)) defs₀ 𝒱₀ c (Pipeline.ucRefs τ sig) [] [hostOps1] sfx_sub sfx_fresh (Wx m c)) $$ [Hb Hh]
  · isplitl [Hb] <;> iassumption
  iintro ⟨Hb, Hh⟩
  rw [Pipeline.chain_nil, wp_pure]
  imodintro
  iapply Hk
  iapply hexit; iexact Hh

/-! ## The arguments at the region's entry, and the result after the later lines -/

/-- The host line before the region writes none of the argument arrays. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne hb))

/-- After the later lines the result buffer holds the quotient of the lane sums of the output array. -/
theorem after_result (c : Dev nD) :
    StableHlo.after (List.flatten [hostOps1]) (Wx m c) (Proc.devRef .tc main_v9) = tailFn ((dats m 0 c).arrAt 6 cfg0.N) := by
  rw [← Wx_out m c]
  simp only [List.flatten_cons, List.flatten_nil, List.append_nil]
  after_results
  rfl

/-- The later lines do not write the mask. -/
theorem after_mask (c : Dev nD) :
    StableHlo.after (List.flatten [hostOps1]) (Wx m c) (Proc.devRef .tc main_arg2) = m ((c : Thread nD τ).loc main_arg2) := by
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Wx_of_ne m c main_arg2 (by decide)]
  exact V_arg m c main_arg2 (by decide)

/-! ## The run -/

set_option backward.isDefEq.respectTransparency.types false in
/-- From any memory with zero counters every weakly fair execution of @main terminates; at the end the result buffer
    holds the quotient of the lane sums of the array of stored rows, and the three arguments are as launched. -/
theorem run_main : θ_run defs (onTc (τ := τ) (main (F := F))) (s₀ m ρ) (fun r => ∀ c : Dev nD,
      r.2.mem ((c.tc : Thread nD τ).loc main_v9) = tailFn ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (pcfgs (F := F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff m c (V m c) _ (fun w => A_eq m c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after (List.flatten [hostOps1]) (Wx m c) (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail_run m Variants.none c Q')
    (QY := fun c s => ∀ b ∈ Pipeline.restRefsP sig Pipeline.Prefetch.none spec0,
      s.mem ((c.tc : Thread nD τ).loc b) = StableHlo.after (List.flatten [hostOps1]) (Wx m c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after (List.flatten [hostOps1]) (Wx m c) (Proc.devRef .tc b)) s')
      isplitl [HU] <;> iassumption)
    (hQ := fun s h c => by
      have hrest : ∀ b : Ref sig .tc, b.isScoped = false → (∀ w, (spec0 w).arr.view.ref ≠ b) →
          s.mem ((c.tc : Thread nD τ).loc b) = StableHlo.after (List.flatten [hostOps1]) (Wx m c) (Proc.devRef .tc b) := fun b hs ha =>
        (h c).2.2 b (Finset.mem_sdiff.mpr ⟨Pipeline.mem_restRefs_of b hs ha, fun hk => by
          obtain ⟨k, -, -⟩ := Finset.mem_image.mp hk; exact k.elim0⟩)
      refine ⟨?_, ?_, ?_, ?_⟩
      · exact (hrest main_v9 (by decide) (by decide)).trans (after_result m c)
      · exact ((h c).1 0).trans (((dats m 0 c).arrAt_in 0 rfl _).trans ((A_eq m c 0).trans (V_arg m c main_arg0 (by decide))))
      · exact ((h c).1 2).trans (((dats m 0 c).arrAt_in 2 rfl _).trans ((A_eq m c 2).trans (V_arg m c main_arg1 (by decide))))
      · exact (hrest main_arg2 (by decide) (by decide)).trans (after_mask m c))

end Cert.KernelIdeal.Hand

end
-- ==== Proof.RefRead.lean ====
/-
  The reference program's run and its stages read at an index, as generated; this module only brings them into the
  certificate (the lemmas about them are in the modules that import it).
-/
import proofs.«105830_j14474039787802_1_alg».proof.Proof.Gen.ReferenceIdeal.Run
import proofs.«105830_j14474039787802_1_alg».proof.Proof.Gen.ReferenceIdeal.Read
-- ==== Proof.Spec.lean ====
/-
  The quantity both programs compute, written once over plain rows of extended reals.

  For one batch entry, a query point `n` and a key point `m`:
    * an embedding row is scaled to unit length, its length clamped below by a small constant;
    * the squared distance of two rows `f`, `g` is `|f|² + |g|² − 2 ⟨f, g⟩`, clamped below by zero; the distance is its
      square root where that is positive and zero where it is not (the square root is taken of `1` there and the result
      multiplied by the zero indicator);
    * a pair is a neighbour pair when the distance of its coordinate rows is below ten;
    * the pair's loss is the neighbour indicator times the part of the embedding distance above one, times both masks.
  The result is the sum of the pair losses over every batch entry and every pair, divided by the sum of the mask products
  plus a small constant.
-/
import Idealize.ShloMosaic.PureOps.Ideal
import Idealize.ShloMosaic.PureOps.Ideal.Laws
import Idealize.ShloMosaic.Lib.ValueIdx

noncomputable section

namespace Cert.Distance

open Idealize.ShloMosaic Idealize.ShloMosaic.ValueIdx

/-- The clamp under an embedding row's length. -/
abbrev eps : EReal := Ideal.ofBits .f32 0x2B8CBCCC#32
abbrev two : EReal := Ideal.ofBits .f32 0x40000000#32
abbrev one : EReal := Ideal.ofBits .f32 0x3F800000#32
/-- The neighbour radius. -/
abbrev ten : EReal := Ideal.ofBits .f32 0x41200000#32
/-- The constant added to the mask count before the division. -/
abbrev tiny : EReal := Ideal.ofBits .f32 0x322BCC77#32

/-- A one-bit word as the number 0 or 1. -/
def ind (b : BitVec 1) : EReal := ((b.toNat : ℝ) : EReal)

/-- The sum of a row's squares. -/
def sqn {n : Nat} (f : Fin n → EReal) : EReal := ∑ d : Fin n, f d * f d

/-- An embedding row scaled to unit length, the length clamped below by `eps`. -/
def unitRow (e : Fin 512 → EReal) (d : Fin 512) : EReal := Ideal.div (e d) (max (Ideal.sqrt (sqn e)) eps)

/-- The squared distance of two rows, clamped below by zero. -/
def gap2 {n : Nat} (f g : Fin n → EReal) : EReal := max (sqn f + sqn g - two * ∑ d : Fin n, f d * g d) 0

/-- The distance of two rows: the square root of the squared distance where that is positive, else zero. -/
def dist {n : Nat} (f g : Fin n → EReal) : EReal :=
  Ideal.sqrt (Scalar.select (Ideal.cmp .ogt (gap2 f g) 0) (gap2 f g) one) * ind (Ideal.cmp .ogt (gap2 f g) 0)

/-- The product of the two points' masks, the key's first. -/
def pairMask (mq mk : EReal) : EReal := mk * mq

/-- One pair's loss: neighbour indicator × (embedding distance − 1)₊ × masks. -/
def pairLoss (eq ek : Fin 512 → EReal) (cq ck : Fin 3 → EReal) (mq mk : EReal) : EReal :=
  ind (Ideal.cmp .olt (dist cq ck) ten) * max (dist (unitRow eq) (unitRow ek) - one) 0 * pairMask mq mk

/-- Row `n` of batch entry `b` of a rank-3 array. -/
abbrev row {B N D : Nat} (x : (⟨3, ![B, N, D]⟩ : Shape).Idx → EReal) (b : Fin B) (n : Fin N) : Fin D → EReal :=
  fun d => x (ix3 b n d)

/-- The sum of the pair losses over everything. -/
def lossSum (e : (⟨3, ![8, 2048, 512]⟩ : Shape).Idx → EReal) (x : (⟨3, ![8, 2048, 3]⟩ : Shape).Idx → EReal)
    (mk : (⟨2, ![8, 2048]⟩ : Shape).Idx → EReal) : EReal :=
  ∑ b : Fin 8, ∑ n : Fin 2048, ∑ m : Fin 2048,
    pairLoss (row e b n) (row e b m) (row x b n) (row x b m) (mk (ix2 b n)) (mk (ix2 b m))

/-- The sum of the mask products over everything. -/
def maskSum (mk : (⟨2, ![8, 2048]⟩ : Shape).Idx → EReal) : EReal :=
  ∑ b : Fin 8, ∑ n : Fin 2048, ∑ m : Fin 2048, pairMask (mk (ix2 b n)) (mk (ix2 b m))

/-- The result. -/
def total (e : (⟨3, ![8, 2048, 512]⟩ : Shape).Idx → EReal) (x : (⟨3, ![8, 2048, 3]⟩ : Shape).Idx → EReal)
    (mk : (⟨2, ![8, 2048]⟩ : Shape).Idx → EReal) : EReal :=
  Ideal.div (lossSum e x mk) (maskSum mk + tiny)

end Cert.Distance

end
-- ==== Proof.RefValue.lean ====
/-
  The reference program's result is the specification: each stage of the reference, read at an index, is the
  corresponding quantity of the specification (unit rows, pair distances, pair losses, mask products), and the two total
  sums and the final division assemble them into the specification's `total`.
-/
import proofs.«105830_j14474039787802_1_alg».proof.Proof.RefRead
import proofs.«105830_j14474039787802_1_alg».proof.Proof.Spec
import Idealize.ShloMosaic.PureOps.Ideal
import Idealize.ShloMosaic.PureOps.Ideal.Laws
import Idealize.ShloMosaic.Lib.ValueIdx
import Mathlib.Algebra.BigOperators.Group.Finset.Defs
import Mathlib.Algebra.BigOperators.Group.Finset.Basic
import Mathlib.Data.Fintype.BigOperators

noncomputable section

namespace Cert.ReferenceIdeal.RefValue

open Idealize.ShloMosaic Idealize.ShloMosaic.ValueIdx
open Cert.ReferenceIdeal Cert.ReferenceIdeal.Read Cert.Distance

/-! ## Index equations: the composed index maps of the layout operations, on an index given by coordinates -/

/-- The row-norm chain under an element `(b, n, d)` reads the squares of row `(b, n)` at `(b, n, k)`. -/
theorem idx_norm (b : Fin 8) (n : Fin 2048) (d : Fin 512) (k : Fin 512) :
    idx_main_call0_v1 (idx_main_call0_v2 (idx_main_v3 (ix3 b n d))) k = ix3 b n k :=
  funext fun a => Fin.ext (by match a with | ⟨0, _⟩ => rfl | ⟨1, _⟩ => rfl | ⟨2, _⟩ => rfl)

/-- Stage `v4` at `(b, n, d)`: row `(b, n)` of the embeddings scaled to unit length. -/
theorem v4_at (e : (⟨S8x2048x512, .f32⟩ : BufTy).Contents (Elt Ideal)) (b : Fin 8) (n : Fin 2048) (d : Fin 512) :
    val_main_v4 (F := Ideal) e (ix3 b n d) = unitRow (row e b n) d := by
  simp only [val_main_v4_apply, val_main_v3_apply, val_main_v2_apply, val_main_v0_apply, val_main_call0_v2_apply,
    val_main_call0_v1_apply, val_main_call0_v0_apply, val_main_call0_cst_apply, val_main_v1_apply, val_main_cst_apply,
    idx_norm, Ideal.ofBits_def, Ideal.mulf_def, Ideal.hostDivf_def, Ideal.hostUnary_sqrt_def, Ideal.maximumf_def,
    Ideal.ofBits_zero_f32, zero_add]
  rfl

/-! ## The pairwise distance of the unit rows -/

/-- The row sum of squares broadcast along the keys reads row `(b, n)` at `(b, n, k)`. -/
theorem idx_sq_q (b : Fin 8) (n m : Fin 2048) (k : Fin 512) :
    idx_main_v6 (idx_main_v7 (idx_main_v9 (ix3 b n m))) k = ix3 b n k :=
  funext fun a => Fin.ext (by match a with | ⟨0, _⟩ => rfl | ⟨1, _⟩ => rfl | ⟨2, _⟩ => rfl)

/-- The row sum of squares broadcast along the queries reads row `(b, m)` at `(b, m, k)`. -/
theorem idx_sq_k (b : Fin 8) (n m : Fin 2048) (k : Fin 512) :
    idx_main_v6 (idx_main_v8 (idx_main_v10 (ix3 b n m))) k = ix3 b m k :=
  funext fun a => Fin.ext (by match a with | ⟨0, _⟩ => rfl | ⟨1, _⟩ => rfl | ⟨2, _⟩ => rfl)

/-- The contraction's left operand at `(b, n, m)`, `k` is row `(b, n)` at `k`. -/
theorem lidx_e (b : Fin 8) (n m : Fin 2048) (k : Fin 512) : lidx_main_v12 (ix3 b n m) k = ix3 b n k :=
  funext fun a => Fin.ext (by match a with | ⟨0, _⟩ => rfl | ⟨1, _⟩ => rfl | ⟨2, _⟩ => rfl)

/-- The contraction's right operand at `(b, n, m)`, `k` is row `(b, m)` at `k`. -/
theorem ridx_e (b : Fin 8) (n m : Fin 2048) (k : Fin 512) : ridx_main_v12 (ix3 b n m) k = ix3 b m k :=
  funext fun a => Fin.ext (by match a with | ⟨0, _⟩ => rfl | ⟨1, _⟩ => rfl | ⟨2, _⟩ => rfl)

/-- Stage `v17` at `(b, n, m)`: the clamped squared distance of the unit rows `(b, n)` and `(b, m)`. -/
theorem v17_at (e : (⟨S8x2048x512, .f32⟩ : BufTy).Contents (Elt Ideal)) (b : Fin 8) (n m : Fin 2048) :
    val_main_v17 (F := Ideal) e (ix3 b n m) = gap2 (unitRow (row e b n)) (unitRow (row e b m)) := by
  simp only [val_main_v17_apply, val_main_v16_apply, val_main_cst_2_apply, val_main_v15_apply, val_main_v14_apply,
    val_main_v13_apply, val_main_cst_1_apply, val_main_v12_apply, val_main_v11_apply, val_main_v10_apply,
    val_main_v9_apply, val_main_v8_apply, val_main_v7_apply, val_main_v6_apply, val_main_cst_0_apply, val_main_v5_apply,
    idx_sq_q, idx_sq_k, lidx_e, ridx_e, v4_at,
    Ideal.ofBits_def, Ideal.mulf_def, Ideal.addf_def, Ideal.subf_def, Ideal.maximumf_def,
    Ideal.ofBits_zero_f32, zero_add]
  rfl

/-- Stage `v25` at `(b, n, m)`: the distance of the unit rows `(b, n)` and `(b, m)`. -/
theorem v25_at (e : (⟨S8x2048x512, .f32⟩ : BufTy).Contents (Elt Ideal)) (b : Fin 8) (n m : Fin 2048) :
    val_main_v25 (F := Ideal) e (ix3 b n m) = dist (unitRow (row e b n)) (unitRow (row e b m)) := by
  simp only [val_main_v25_apply, val_main_v24_apply, val_main_v23_apply, val_main_v22_apply, val_main_cst_5_apply,
    val_main_v21_apply, val_main_v20_apply, val_main_call1_v1_apply, val_main_call1_v0_apply, val_main_cst_4_apply,
    val_main_v19_apply, val_main_v18_apply, val_main_cst_3_apply, v17_at,
    Ideal.ofBits_def, Ideal.mulf_def, Ideal.hostUnary_sqrt_def, Ideal.cmpf_def, Ideal.ofBits_zero_f32]
  rfl

/-! ## The pairwise distance of the coordinate rows -/

/-- The coordinates' row sum of squares broadcast along the keys reads row `(b, n)` at `(b, n, k)`. -/
theorem idx_csq_q (b : Fin 8) (n m : Fin 2048) (k : Fin 3) :
    idx_main_v27 (idx_main_v28 (idx_main_v30 (ix3 b n m))) k = ix3 b n k :=
  funext fun a => Fin.ext (by match a with | ⟨0, _⟩ => rfl | ⟨1, _⟩ => rfl | ⟨2, _⟩ => rfl)

/-- The coordinates' row sum of squares broadcast along the queries reads row `(b, m)` at `(b, m, k)`. -/
theorem idx_csq_k (b : Fin 8) (n m : Fin 2048) (k : Fin 3) :
    idx_main_v27 (idx_main_v29 (idx_main_v31 (ix3 b n m))) k = ix3 b m k :=
  funext fun a => Fin.ext (by match a with | ⟨0, _⟩ => rfl | ⟨1, _⟩ => rfl | ⟨2, _⟩ => rfl)

/-- The coordinates' contraction: the left operand at `(b, n, m)`, `k` is row `(b, n)` at `k`. -/
theorem lidx_c (b : Fin 8) (n m : Fin 2048) (k : Fin 3) : lidx_main_v33 (ix3 b n m) k = ix3 b n k :=
  funext fun a => Fin.ext (by match a with | ⟨0, _⟩ => rfl | ⟨1, _⟩ => rfl | ⟨2, _⟩ => rfl)

/-- The coordinates' contraction: the right operand at `(b, n, m)`, `k` is row `(b, m)` at `k`. -/
theorem ridx_c (b : Fin 8) (n m : Fin 2048) (k : Fin 3) : ridx_main_v33 (ix3 b n m) k = ix3 b m k :=
  funext fun a => Fin.ext (by match a with | ⟨0, _⟩ => rfl | ⟨1, _⟩ => rfl | ⟨2, _⟩ => rfl)

/-- Stage `v38` at `(b, n, m)`: the clamped squared distance of the coordinate rows `(b, n)` and `(b, m)`. -/
theorem v38_at (x : (⟨S8x2048x3, .f32⟩ : BufTy).Contents (Elt Ideal)) (b : Fin 8) (n m : Fin 2048) :
    val_main_v38 (F := Ideal) x (ix3 b n m) = gap2 (row x b n) (row x b m) := by
  simp only [val_main_v38_apply, val_main_v37_apply, val_main_cst_8_apply, val_main_v36_apply, val_main_v35_apply,
    val_main_v34_apply, val_main_cst_7_apply, val_main_v33_apply, val_main_v32_apply, val_main_v31_apply,
    val_main_v30_apply, val_main_v29_apply, val_main_v28_apply, val_main_v27_apply, val_main_cst_6_apply,
    val_main_v26_apply, idx_csq_q, idx_csq_k, lidx_c, ridx_c,
    Ideal.ofBits_def, Ideal.mulf_def, Ideal.addf_def, Ideal.subf_def, Ideal.maximumf_def,
    Ideal.ofBits_zero_f32, zero_add]
  rfl

/-- Stage `v46` at `(b, n, m)`: the distance of the coordinate rows `(b, n)` and `(b, m)`. -/
theorem v46_at (x : (⟨S8x2048x3, .f32⟩ : BufTy).Contents (Elt Ideal)) (b : Fin 8) (n m : Fin 2048) :
    val_main_v46 (F := Ideal) x (ix3 b n m) = dist (row x b n) (row x b m) := by
  simp only [val_main_v46_apply, val_main_v45_apply, val_main_v44_apply, val_main_v43_apply, val_main_cst_11_apply,
    val_main_v42_apply, val_main_v41_apply, val_main_call2_v1_apply, val_main_call2_v0_apply, val_main_cst_10_apply,
    val_main_v40_apply, val_main_v39_apply, val_main_cst_9_apply, v38_at,
    Ideal.ofBits_def, Ideal.mulf_def, Ideal.hostUnary_sqrt_def, Ideal.cmpf_def, Ideal.ofBits_zero_f32]
  rfl

/-! ## The mask product and the pair loss -/

/-- The mask broadcast along the queries reads the key's entry `(b, m)`. -/
theorem idx_mask_k (b : Fin 8) (n m : Fin 2048) : idx_main_v54 (idx_main_v56 (ix3 b n m)) = ix2 b m :=
  funext fun a => Fin.ext (by match a with | ⟨0, _⟩ => rfl | ⟨1, _⟩ => rfl)

/-- The mask broadcast along the keys reads the query's entry `(b, n)`. -/
theorem idx_mask_q (b : Fin 8) (n m : Fin 2048) : idx_main_v55 (idx_main_v57 (ix3 b n m)) = ix2 b n :=
  funext fun a => Fin.ext (by match a with | ⟨0, _⟩ => rfl | ⟨1, _⟩ => rfl)

/-- Stage `v58` at `(b, n, m)`: the product of the two points' masks, the key's first. -/
theorem v58_at (mk : (⟨S8x2048, .f32⟩ : BufTy).Contents (Elt Ideal)) (b : Fin 8) (n m : Fin 2048) :
    val_main_v58 (F := Ideal) mk (ix3 b n m) = pairMask (mk (ix2 b n)) (mk (ix2 b m)) := by
  simp only [val_main_v58_apply, val_main_v57_apply, val_main_v56_apply, val_main_v55_apply, val_main_v54_apply,
    idx_mask_k, idx_mask_q, Ideal.mulf_def]
  rfl

/-- Stage `v59` at `(b, n, m)`: the pair's loss. -/
theorem v59_at (e : (⟨S8x2048x512, .f32⟩ : BufTy).Contents (Elt Ideal))
    (x : (⟨S8x2048x3, .f32⟩ : BufTy).Contents (Elt Ideal)) (mk : (⟨S8x2048, .f32⟩ : BufTy).Contents (Elt Ideal))
    (b : Fin 8) (n m : Fin 2048) :
    val_main_v59 (F := Ideal) e x mk (ix3 b n m)
      = pairLoss (row e b n) (row e b m) (row x b n) (row x b m) (mk (ix2 b n)) (mk (ix2 b m)) := by
  simp only [val_main_v59_apply, val_main_v53_apply, val_main_v52_apply, val_main_call3_v0_apply,
    val_main_call3_cst_apply, val_main_v51_apply, val_main_v50_apply, val_main_cst_13_apply, val_main_v49_apply,
    val_main_v48_apply, val_main_v47_apply, val_main_cst_12_apply, v25_at, v46_at, v58_at,
    Ideal.ofBits_def, Ideal.mulf_def, Ideal.subf_def, Ideal.maximumf_def, Ideal.cmpf_def, Ideal.ofBits_zero_f32]
  rfl

/-! ## A sum over a rank-3 index set is the triple sum over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The two total sums and the result -/

/-- Stage `v61`: the sum of the pair losses over every batch entry and every pair. -/
theorem v61_at (e : (⟨S8x2048x512, .f32⟩ : BufTy).Contents (Elt Ideal))
    (x : (⟨S8x2048x3, .f32⟩ : BufTy).Contents (Elt Ideal)) (mk : (⟨S8x2048, .f32⟩ : BufTy).Contents (Elt Ideal))
    (i : S_.Idx) : val_main_v61 (F := Ideal) e x mk i = lossSum e x mk := by
  rw [val_main_v61_apply, val_main_cst_15_apply, Ideal.ofBits_def, Ideal.ofBits_zero_f32, zero_add, sum_idx3]
  simp only [v59_at]
  rfl

/-- Stage `v60`: the sum of the mask products over every batch entry and every pair. -/
theorem v60_at (mk : (⟨S8x2048, .f32⟩ : BufTy).Contents (Elt Ideal)) (i : S_.Idx) :
    val_main_v60 (F := Ideal) mk i = maskSum mk := by
  rw [val_main_v60_apply, val_main_cst_14_apply, Ideal.ofBits_def, Ideal.ofBits_zero_f32, zero_add, sum_idx3]
  simp only [v58_at]
  rfl

/-- The reference's result is the specification's `total`. -/
theorem ref_total (e : (⟨Cert.ReferenceIdeal.S8x2048x512, .f32⟩ : BufTy).Contents (Elt Ideal))
    (x : (⟨Cert.ReferenceIdeal.S8x2048x3, .f32⟩ : BufTy).Contents (Elt Ideal))
    (mk : (⟨Cert.ReferenceIdeal.S8x2048, .f32⟩ : BufTy).Contents (Elt Ideal)) (i : Cert.ReferenceIdeal.S_.Idx) :
    Cert.ReferenceIdeal.Read.val_main_v63 (F := Ideal) e x mk i = Cert.Distance.total e x mk := by
  rw [val_main_v63_apply, val_main_v62_apply, val_main_cst_16_apply, v61_at, v60_at, Ideal.hostDivf_def,
    Ideal.addf_def, Ideal.ofBits_def]
  rfl

end Cert.ReferenceIdeal.RefValue

end
-- ==== Proof.TileIdeal.lean ====
/-
  The row one grid point stores, named from the blocks the point is handed; and the grid point with a given number.
-/
import proofs.«105830_j14474039787802_1_alg».proof.Proof.DataIdeal

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Grid point number `n` (the grid has 128 points: batch entry `n / 16`, query tile `n % 16`). -/
def pt (n : Nat) (h : n < 128) : Fin cfg0.N := ⟨n, by rw [show cfg0.N = 128 from N_0]; exact h⟩

theorem pt_val (n : Nat) (h : n < 128) : (pt n h).val = n := rfl

/-- The row point `t` stores: `outv` of the six blocks the point is handed. -/
def tileRow (c : Dev nD) (t : Fin cfg0.N) : Vec F S1x1x128 .f32 :=
  outv (iblk m c 0 t) (iblk m c 1 t) (iblk m c 2 t) (iblk m c 3 t) (iblk m c 4 t) (iblk m c 5 t)

end Cert.KernelIdeal.Hand

end
-- ==== Proof.TileValue.lean ====
/-
  The row one grid point stores, read at the ideal values (floats are extended reals, every operation exact, a change
  of float format the identity): lane 0 is the sum over the tile's 128 query rows and all 2048 key rows of the pair
  loss, lane 1 the sum of the mask products.

  Bottom-up: the body's layout operations read at an index (a column [a] -> [a,1] -> [a,b] reads its row's entry), a
  sum along the last axis read at a row, the two products of rows read at a pair as the sum over the contracted
  coordinate, then each named value of the body at explicit coordinates against the plain-row quantities
  (unit row, squared distance, distance), and last the two total sums and the lane select.
-/
import proofs.«105830_j14474039787802_1_alg».proof.Proof.PayloadIdeal
import proofs.«105830_j14474039787802_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.TileValue

open Idealize.ShloMosaic Idealize.ShloMosaic.ValueIdx Cert.KernelIdeal Cert.KernelIdeal.Gen Cert.Distance

/-! ## Layout operations on a column, read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## Words -/

/-- A one-bit word widened to 32 bits and read as a signed integer is the number 0 or 1 the word is. -/
theorem sitofp_extui_eq_ind (b : BitVec 1) : FloatOps.sitofp (F := Ideal) .f32 (b.setWidth 32) = ind b := by
  show ((((b.setWidth 32).toInt : ℤ) : ℝ) : EReal) = ((b.toNat : ℝ) : EReal)
  have e : (b.setWidth 32).toInt = (b.toNat : ℤ) := by revert b; decide
  rw [e, Int.cast_natCast]

/-! ## A sum along the last axis, read at a row -/

/-- The sum over the columns of a matrix, read at row `r`, is the sum of that row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  match ax with
  | ⟨0, _⟩ => rfl
  | ⟨1, _⟩ => rfl

/-! ## The two products of rows, read at a pair -/

theorem lhsE_0 (i : S128x2048.Idx) (c : dot_S128x512_S2048x512_S128x2048_1_1_0_0_n_n.contr.Idx) :
    (dot_S128x512_S2048x512_S128x2048_1_1_0_0_n_n.lhsIdx i c 0).val = (i 0).val := by
  unfold DotDims.lhsIdx
  rw [dif_neg (show ¬(0 : Fin S128x512.rank) ∈ dot_S128x512_S2048x512_S128x2048_1_1_0_0_n_n.lhsBatch by decide), dif_pos (show (0 : Fin S128x512.rank) ∈ dot_S128x512_S2048x512_S128x2048_1_1_0_0_n_n.lhsNonContracting by decide)]
  rfl
theorem lhsE_1 (i : S128x2048.Idx) (c : dot_S128x512_S2048x512_S128x2048_1_1_0_0_n_n.contr.Idx) :
    (dot_S128x512_S2048x512_S128x2048_1_1_0_0_n_n.lhsIdx i c 1).val = (c ⟨0, by decide⟩).val :=
  dot_S128x512_S2048x512_S128x2048_1_1_0_0_n_n.lhsIdx_val_of_single rfl i c
theorem rhsE_0 (i : S128x2048.Idx) (c : dot_S128x512_S2048x512_S128x2048_1_1_0_0_n_n.contr.Idx) :
    (dot_S128x512_S2048x512_S128x2048_1_1_0_0_n_n.rhsIdx i c 0).val = (i 1).val := by
  unfold DotDims.rhsIdx
  rw [dif_neg (show ¬(0 : Fin S2048x512.rank) ∈ dot_S128x512_S2048x512_S128x2048_1_1_0_0_n_n.rhsBatch by decide), dif_pos (show (0 : Fin S2048x512.rank) ∈ dot_S128x512_S2048x512_S128x2048_1_1_0_0_n_n.rhsNonContracting by decide)]
  rfl
theorem rhsE_1 (i : S128x2048.Idx) (c : dot_S128x512_S2048x512_S128x2048_1_1_0_0_n_n.contr.Idx) :
    (dot_S128x512_S2048x512_S128x2048_1_1_0_0_n_n.rhsIdx i c 1).val = (c ⟨0, by decide⟩).val :=
  dot_S128x512_S2048x512_S128x2048_1_1_0_0_n_n.rhsIdx_val_of_single rfl i c

/-- The product of the query rows with the key rows over the 512 embedding coordinates, into the zero accumulator, read
    at the pair `(q, k)`: the sum over the coordinate of the two rows' entries' products. -/
theorem matmulE_apply {φ₁ φ₂ : FTy} (l : FVec Ideal S128x512 φ₁) (r : FVec Ideal S2048x512 φ₂) (q : Fin 128) (k : Fin 2048) :
    matmul dot_S128x512_S2048x512_S128x2048_1_1_0_0_n_n none l r (constant (F := Ideal) S128x2048 .f32 0x00000000#32) (ix2 q k)
      = ∑ d : Fin 512, l (ix2 q d) * r (ix2 k d) := by
  refine (Ideal.matmul_constant_zero_apply dot_S128x512_S2048x512_S128x2048_1_1_0_0_n_n none l r (ix2 q k)).trans ?_
  rw [← Equiv.sum_comp (contrEquiv1 dot_S128x512_S2048x512_S128x2048_1_1_0_0_n_n 512 rfl rfl).symm]
  refine Finset.sum_congr rfl fun d _ => ?_
  have hd := contrEquiv1_symm_val dot_S128x512_S2048x512_S128x2048_1_1_0_0_n_n 512 rfl rfl d
  have el : dot_S128x512_S2048x512_S128x2048_1_1_0_0_n_n.lhsIdx (ix2 q k) ((contrEquiv1 dot_S128x512_S2048x512_S128x2048_1_1_0_0_n_n 512 rfl rfl).symm d) = ix2 q d := funext fun a => Fin.ext (by
    match a with
    | ⟨0, _⟩ => exact lhsE_0 _ _
    | ⟨1, _⟩ => exact (lhsE_1 _ _).trans hd)
  have er : dot_S128x512_S2048x512_S128x2048_1_1_0_0_n_n.rhsIdx (ix2 q k) ((contrEquiv1 dot_S128x512_S2048x512_S128x2048_1_1_0_0_n_n 512 rfl rfl).symm d) = ix2 k d := funext fun a => Fin.ext (by
    match a with
    | ⟨0, _⟩ => exact rhsE_0 _ _
    | ⟨1, _⟩ => exact (rhsE_1 _ _).trans hd)
  rw [el, er]

theorem lhsC_0 (i : S128x2048.Idx) (c : dot_S128x3_S2048x3_S128x2048_1_1_0_0_n_n.contr.Idx) :
    (dot_S128x3_S2048x3_S128x2048_1_1_0_0_n_n.lhsIdx i c 0).val = (i 0).val := by
  unfold DotDims.lhsIdx
  rw [dif_neg (show ¬(0 : Fin S128x3.rank) ∈ dot_S128x3_S2048x3_S128x2048_1_1_0_0_n_n.lhsBatch by decide), dif_pos (show (0 : Fin S128x3.rank) ∈ dot_S128x3_S2048x3_S128x2048_1_1_0_0_n_n.lhsNonContracting by decide)]
  rfl
theorem lhsC_1 (i : S128x2048.Idx) (c : dot_S128x3_S2048x3_S128x2048_1_1_0_0_n_n.contr.Idx) :
    (dot_S128x3_S2048x3_S128x2048_1_1_0_0_n_n.lhsIdx i c 1).val = (c ⟨0, by decide⟩).val :=
  dot_S128x3_S2048x3_S128x2048_1_1_0_0_n_n.lhsIdx_val_of_single rfl i c
theorem rhsC_0 (i : S128x2048.Idx) (c : dot_S128x3_S2048x3_S128x2048_1_1_0_0_n_n.contr.Idx) :
    (dot_S128x3_S2048x3_S128x2048_1_1_0_0_n_n.rhsIdx i c 0).val = (i 1).val := by
  unfold DotDims.rhsIdx
  rw [dif_neg (show ¬(0 : Fin S2048x3.rank) ∈ dot_S128x3_S2048x3_S128x2048_1_1_0_0_n_n.rhsBatch by decide), dif_pos (show (0 : Fin S2048x3.rank) ∈ dot_S128x3_S2048x3_S128x2048_1_1_0_0_n_n.rhsNonContracting by decide)]
  rfl
theorem rhsC_1 (i : S128x2048.Idx) (c : dot_S128x3_S2048x3_S128x2048_1_1_0_0_n_n.contr.Idx) :
    (dot_S128x3_S2048x3_S128x2048_1_1_0_0_n_n.rhsIdx i c 1).val = (c ⟨0, by decide⟩).val :=
  dot_S128x3_S2048x3_S128x2048_1_1_0_0_n_n.rhsIdx_val_of_single rfl i c

/-- The same product over the 3 point coordinates. -/
theorem matmulC_apply (l : FVec Ideal S128x3 .f32) (r : FVec Ideal S2048x3 .f32) (q : Fin 128) (k : Fin 2048) :
    matmul dot_S128x3_S2048x3_S128x2048_1_1_0_0_n_n (some .fp32) l r (constant (F := Ideal) S128x2048 .f32 0x00000000#32) (ix2 q k)
      = ∑ d : Fin 3, l (ix2 q d) * r (ix2 k d) := by
  refine (Ideal.matmul_constant_zero_apply dot_S128x3_S2048x3_S128x2048_1_1_0_0_n_n (some .fp32) l r (ix2 q k)).trans ?_
  rw [← Equiv.sum_comp (contrEquiv1 dot_S128x3_S2048x3_S128x2048_1_1_0_0_n_n 3 rfl rfl).symm]
  refine Finset.sum_congr rfl fun d _ => ?_
  have hd := contrEquiv1_symm_val dot_S128x3_S2048x3_S128x2048_1_1_0_0_n_n 3 rfl rfl d
  have el : dot_S128x3_S2048x3_S128x2048_1_1_0_0_n_n.lhsIdx (ix2 q k) ((contrEquiv1 dot_S128x3_S2048x3_S128x2048_1_1_0_0_n_n 3 rfl rfl).symm d) = ix2 q d := funext fun a => Fin.ext (by
    match a with
    | ⟨0, _⟩ => exact lhsC_0 _ _
    | ⟨1, _⟩ => exact (lhsC_1 _ _).trans hd)
  have er : dot_S128x3_S2048x3_S128x2048_1_1_0_0_n_n.rhsIdx (ix2 q k) ((contrEquiv1 dot_S128x3_S2048x3_S128x2048_1_1_0_0_n_n 3 rfl rfl).symm d) = ix2 k d := funext fun a => Fin.ext (by
    match a with
    | ⟨0, _⟩ => exact rhsC_0 _ _
    | ⟨1, _⟩ => exact (rhsC_1 _ _).trans hd)
  rw [el, er]

/-! ## The loaded blocks' rows -/

/-- The query tile's coordinates as a matrix: row `q` of the block. -/
theorem pay2_apply (x2 : Vec Ideal S1x128x3 .f32) (q : Fin 128) (d : Fin 3) :
    k0_pay2 (F := Ideal) x2 (ix2 q d) = x2 (ix3 (0 : Fin 1) q d) :=
  shapeCast_1ab_ab_apply x2 _ q d

/-- The keys' coordinates as a matrix. -/
theorem pay3_apply (x3 : Vec Ideal S1x2048x3 .f32) (k : Fin 2048) (d : Fin 3) :
    k0_pay3 (F := Ideal) x3 (ix2 k d) = x3 (ix3 (0 : Fin 1) k d) :=
  shapeCast_1ab_ab_apply x3 _ k d

/-- The query tile's mask as a vector. -/
theorem pay4_apply (x4 : Vec Ideal S1x128x1 .f32) (q : Fin 128) :
    k0_pay4 (F := Ideal) x4 (ix1 q) = x4 (ix3 (0 : Fin 1) q (0 : Fin 1)) :=
  (shapeCast_a1_a_apply _ _ q).trans (shapeCast_1ab_ab_apply x4 _ q (0 : Fin 1))

/-- The keys' mask as a vector. -/
theorem pay5_apply (x5 : Vec Ideal S1x2048x1 .f32) (k : Fin 2048) :
    k0_pay5 (F := Ideal) x5 (ix1 k) = x5 (ix3 (0 : Fin 1) k (0 : Fin 1)) :=
  (shapeCast_a1_a_apply _ _ k).trans (shapeCast_1ab_ab_apply x5 _ k (0 : Fin 1))

/-! ## Rows scaled to unit length -/

/-- A matrix of 512-long rows, each divided by its length clamped below: row `q` is the unit row of row `q`. -/
theorem unit_apply {n : ℕ} (v : FVec Ideal ⟨2, ![n, 512]⟩ .f32)
    (hr : (⟨2, ![n, 512]⟩ : Shape).Reduces [1] ⟨1, ![n]⟩) (hφ : FKind.Formats .f32)
    (hacc : (0x00000000#32 : BitVec 32) = 0x00000000#32)
    (hc : (⟨1, ![n]⟩ : Shape).ShapeCasts ⟨2, ![n, 1]⟩) (hb : (⟨2, ![n, 1]⟩ : Shape).Broadcasts ⟨2, ![n, 512]⟩)
    (q : Fin n) (d : Fin 512) :
    divf v (broadcastTo ⟨2, ![n, 512]⟩
        (maximumf (sqrt (shapeCast ⟨2, ![n, 1]⟩ (multiReduction (F := Ideal) .add [1] ⟨1, ![n]⟩ (mulf v v) 0x00000000#32 hr hφ hacc) hc))
          (broadcast ⟨2, ![n, 1]⟩ (Scalar.ofBits (F := Ideal) .f32 0x2B8CBCCC#32))) hb) (ix2 q d)
      = unitRow (fun d => v (ix2 q d)) d := by
  refine (divf_apply _ _ _).trans ?_
  refine congrArg (Ideal.div (v (ix2 q d))) ?_
  refine (broadcastTo_a1_ab_apply _ hb q d).trans ?_
  refine (maximumf_apply _ _ _).trans ?_
  refine congrArg (fun t => max (Ideal.sqrt t) eps) ?_
  refine (shapeCast_a_a1_apply _ hc q (0 : Fin 1)).trans ?_
  exact rowSum_apply (mulf v v) hr hφ hacc q

/-- The query tile's embeddings scaled to unit length. -/
theorem pay6_apply (x0 : Vec Ideal S1x128x512 .f32) (q : Fin 128) (d : Fin 512) :
    k0_pay6 (F := Ideal) x0 (ix2 q d) = unitRow (fun d => x0 (ix3 (0 : Fin 1) q d)) d := by
  unfold k0_pay6
  refine (unit_apply _ _ _ _ _ _ q d).trans ?_
  exact congrArg (fun f => unitRow f d) (funext fun d' => shapeCast_1ab_ab_apply x0 _ q d')

/-- The keys' embeddings scaled to unit length. -/
theorem pay7_apply (x1 : Vec Ideal S1x2048x512 .f32) (k : Fin 2048) (d : Fin 512) :
    k0_pay7 (F := Ideal) x1 (ix2 k d) = unitRow (fun d => x1 (ix3 (0 : Fin 1) k d)) d := by
  unfold k0_pay7
  refine (unit_apply _ _ _ _ _ _ k d).trans ?_
  exact congrArg (fun f => unitRow f d) (funext fun d' => shapeCast_1ab_ab_apply x1 _ k d')

/-- The unit rows' inner products. -/
theorem pay8_apply (x0 : Vec Ideal S1x128x512 .f32) (x1 : Vec Ideal S1x2048x512 .f32) (q : Fin 128) (k : Fin 2048) :
    k0_pay8 (F := Ideal) x0 x1 (ix2 q k)
      = ∑ d : Fin 512, unitRow (fun d => x0 (ix3 (0 : Fin 1) q d)) d * unitRow (fun d => x1 (ix3 (0 : Fin 1) k d)) d := by
  unfold k0_pay8
  refine (matmulE_apply _ _ q k).trans ?_
  refine Finset.sum_congr rfl fun d _ => ?_
  exact congrArg₂ (fun s t : EReal => s * t) (pay6_apply x0 q d) (pay7_apply x1 k d)

/-- The query tile's unit rows' entries squared. -/
theorem pay9_apply (x0 : Vec Ideal S1x128x512 .f32) (q : Fin 128) (d : Fin 512) :
    k0_pay9 (F := Ideal) x0 (ix2 q d)
      = unitRow (fun d => x0 (ix3 (0 : Fin 1) q d)) d * unitRow (fun d => x0 (ix3 (0 : Fin 1) q d)) d := by
  unfold k0_pay9
  exact congrArg₂ (fun s t : EReal => s * t) (pay6_apply x0 q d) (pay6_apply x0 q d)

/-! ## Squared distance and distance of two rows -/

/-- The body's squared distance of row `q` and row `k` from the rows' sums of squares (a column and a row broadcast
    over the pairs) and the matrix of inner products: `|f|² + |g|² − 2⟨f, g⟩` clamped below by zero. -/
theorem gap_apply (A : FVec Ideal S128 .f32) (B : FVec Ideal S2048 .f32) (M : FVec Ideal S128x2048 .f32)
    (hc1 : S128.ShapeCasts S128x1) (hc2 : S2048.ShapeCasts S1x2048)
    (hb1 : S128x1.Broadcasts S128x2048) (hb2 : S1x2048.Broadcasts S128x2048)
    {n : ℕ} (f g : Fin n → EReal) (q : Fin 128) (k : Fin 2048)
    (hA : A (ix1 q) = sqn f) (hB : B (ix1 k) = sqn g) (hM : M (ix2 q k) = ∑ d : Fin n, f d * g d) :
    maximumf
        (subf (addf (broadcastTo S128x2048 (shapeCast S128x1 A hc1) hb1) (broadcastTo S128x2048 (shapeCast S1x2048 B hc2) hb2))
          (mulf (broadcast S128x2048 (Scalar.ofBits (F := Ideal) .f32 0x40000000#32)) M))
        (broadcast S128x2048 (Scalar.ofBits (F := Ideal) .f32 0x00000000#32)) (ix2 q k)
      = gap2 f g := by
  refine (maximumf_apply _ _ _).trans ?_
  refine congrArg₂ (fun s t : EReal => max s t) ?_ Ideal.ofBits_zero_f32
  refine (subf_apply _ _ _).trans ?_
  refine congrArg₂ (fun s t : EReal => s - t) ?_ ?_
  · refine (addf_apply _ _ _).trans ?_
    refine congrArg₂ (fun s t : EReal => s + t) ?_ ?_
    · exact ((broadcastTo_a1_ab_apply _ hb1 q k).trans (shapeCast_a_a1_apply A hc1 q (0 : Fin 1))).trans hA
    · exact ((broadcastTo_1b_ab_apply _ hb2 q k).trans (shapeCast_a_1a_apply B hc2 (0 : Fin 1) k)).trans hB
  · refine (mulf_apply _ _ _).trans ?_
    exact congrArg (fun t : EReal => two * t) hM

/-- From a squared distance `G`: the root where `G` is positive (the root of one elsewhere) times the 0/1 number of
    `G > 0`, the comparison's bit widened and read as an integer. -/
theorem rootInd (G : EReal) {n : ℕ} (f g : Fin n → EReal) (hG : G = gap2 f g) :
    FloatOps.mulf (F := Ideal) (φ := .f32)
        (FloatOps.sqrt (F := Ideal) (φ := .f32)
          (Scalar.select (FloatOps.cmpf (F := Ideal) (φ := .f32) .ogt G (Scalar.ofBits (F := Ideal) .f32 0x00000000#32)) G
            (Scalar.ofBits (F := Ideal) .f32 0x3F800000#32)))
        (FloatOps.sitofp (F := Ideal) .f32
          ((FloatOps.cmpf (F := Ideal) (φ := .f32) .ogt G (Scalar.ofBits (F := Ideal) .f32 0x00000000#32)).setWidth 32))
      = dist f g := by
  subst hG
  rw [sitofp_extui_eq_ind]
  show Ideal.sqrt (Scalar.select (Ideal.cmp .ogt (gap2 f g) (Ideal.ofBits .f32 0x00000000#32)) (gap2 f g) one)
      * ind (Ideal.cmp .ogt (gap2 f g) (Ideal.ofBits .f32 0x00000000#32)) = _
  rw [Ideal.ofBits_zero_f32]
  rfl

/-- The embedding distance of a pair, from the keys' unit rows, the inner products and the query rows' squares. -/
theorem pay10_apply (v29 : FVec Ideal S2048x512 .f32) (v32 : FVec Ideal S128x2048 .f32) (v33 : FVec Ideal S128x512 .f32)
    (f g : Fin 512 → EReal) (q : Fin 128) (k : Fin 2048)
    (h29 : ∀ d, v29 (ix2 k d) = g d) (h32 : v32 (ix2 q k) = ∑ d : Fin 512, f d * g d) (h33 : ∀ d, v33 (ix2 q d) = f d * f d) :
    k0_pay10 (F := Ideal) v29 v32 v33 (ix2 q k) = dist f g := by
  unfold k0_pay10
  refine rootInd _ f g ?_
  refine gap_apply _ _ v32 _ _ _ _ f g q k ?_ ?_ h32
  · refine (rowSum_apply v33 _ _ _ q).trans ?_
    exact Finset.sum_congr rfl fun d _ => h33 d
  · refine (rowSum_apply (mulf v29 v29) _ _ _ k).trans ?_
    exact Finset.sum_congr rfl fun d _ => congrArg₂ (fun s t : EReal => s * t) (h29 d) (h29 d)

/-- The coordinates' squared distance of a pair. -/
theorem pay11_apply (v5 : FVec Ideal S128x3 .f32) (v7 : FVec Ideal S2048x3 .f32) (q : Fin 128) (k : Fin 2048) :
    k0_pay11 (F := Ideal) v5 v7 (ix2 q k) = gap2 (fun d => v5 (ix2 q d)) (fun d => v7 (ix2 k d)) := by
  unfold k0_pay11
  refine gap_apply _ _ _ _ _ _ _ (fun d => v5 (ix2 q d)) (fun d => v7 (ix2 k d)) q k ?_ ?_ ?_
  · exact rowSum_apply (mulf v5 v5) _ _ _ q
  · exact rowSum_apply (mulf v7 v7) _ _ _ k
  · exact matmulC_apply v5 v7 q k

/-- The root the coordinates' distance is made of. -/
theorem pay12_apply (v5 : FVec Ideal S128x3 .f32) (v7 : FVec Ideal S2048x3 .f32) (q : Fin 128) (k : Fin 2048) :
    k0_pay12 (F := Ideal) v5 v7 (ix2 q k)
      = Ideal.sqrt (Scalar.select (Ideal.cmp .ogt (gap2 (fun d => v5 (ix2 q d)) (fun d => v7 (ix2 k d))) 0)
          (gap2 (fun d => v5 (ix2 q d)) (fun d => v7 (ix2 k d))) one) := by
  unfold k0_pay12
  show Ideal.sqrt (Scalar.select (Ideal.cmp .ogt (k0_pay11 (F := Ideal) v5 v7 (ix2 q k)) (Ideal.ofBits .f32 0x00000000#32))
      (k0_pay11 (F := Ideal) v5 v7 (ix2 q k)) one) = _
  rw [pay11_apply, Ideal.ofBits_zero_f32]

/-- The bit of "the coordinates' squared distance is positive", widened. -/
theorem pay13_apply (v5 : FVec Ideal S128x3 .f32) (v7 : FVec Ideal S2048x3 .f32) (q : Fin 128) (k : Fin 2048) :
    k0_pay13 (F := Ideal) v5 v7 (ix2 q k)
      = (Ideal.cmp .ogt (gap2 (fun d => v5 (ix2 q d)) (fun d => v7 (ix2 k d))) 0).setWidth 32 := by
  unfold k0_pay13
  show (Ideal.cmp .ogt (k0_pay11 (F := Ideal) v5 v7 (ix2 q k)) (Ideal.ofBits .f32 0x00000000#32)).setWidth 32 = _
  rw [pay11_apply, Ideal.ofBits_zero_f32]

/-! ## One pair's term, the total sums and the lane select -/

/-- One pair's term as the body computes it from the pair's numbers: the two masks `mq`, `mk`, the embedding
    distance `e`, and the root `c` and widened bit `s` the coordinates' distance is made of. -/
def kterm (mq mk e c : EReal) (s : BitVec 32) : EReal :=
  FloatOps.sitofp (F := Ideal) .f32
      ((FloatOps.cmpf (F := Ideal) (φ := .f32) .olt (c * FloatOps.sitofp (F := Ideal) .f32 s) (Ideal.ofBits .f32 0x41200000#32)).setWidth 32)
    * max (e - Ideal.ofBits .f32 0x3F800000#32) (Ideal.ofBits .f32 0x00000000#32) * (mq * mk)

/-- At the distances, the body's term is the pair loss: the masks' product commutes. -/
theorem kterm_eq (mq mk : EReal) {n m : ℕ} (fe ge : Fin n → EReal) (fc gc : Fin m → EReal) :
    kterm mq mk (dist fe ge) (Ideal.sqrt (Scalar.select (Ideal.cmp .ogt (gap2 fc gc) 0) (gap2 fc gc) one))
        ((Ideal.cmp .ogt (gap2 fc gc) 0).setWidth 32)
      = ind (Ideal.cmp .olt (dist fc gc) ten) * max (dist fe ge - one) 0 * pairMask mq mk := by
  unfold kterm pairMask
  rw [sitofp_extui_eq_ind, sitofp_extui_eq_ind, Ideal.ofBits_zero_f32, mul_comm mq mk]
  rfl

/-- The masks' product over the pairs: the query's mask down the rows times the key's along the columns. -/
theorem maskProd_apply (v10 : FVec Ideal S128 .f32) (v13 : FVec Ideal S2048 .f32)
    (hc1 : S128.ShapeCasts S128x1) (hc2 : S2048.ShapeCasts S1x2048)
    (hb1 : S128x1.Broadcasts S128x2048) (hb2 : S1x2048.Broadcasts S128x2048) (q : Fin 128) (k : Fin 2048) :
    mulf (broadcastTo S128x2048 (shapeCast S128x1 v10 hc1) hb1) (broadcastTo S128x2048 (shapeCast S1x2048 v13 hc2) hb2) (ix2 q k)
      = v10 (ix1 q) * v13 (ix1 k) := by
  refine (mulf_apply _ _ _).trans ?_
  refine congrArg₂ (fun s t : EReal => s * t) ?_ ?_
  · exact (broadcastTo_a1_ab_apply _ hb1 q k).trans (shapeCast_a_a1_apply v10 hc1 q (0 : Fin 1))
  · exact (broadcastTo_1b_ab_apply _ hb2 q k).trans (shapeCast_a_1a_apply v13 hc2 (0 : Fin 1) k)

/-- The sum of a 128 × 2048 matrix the way the body takes it: along each row, then over the 128 row sums, the one
    entry left read out. -/
theorem total_apply (w : FVec Ideal S128x2048 .f32) (hr1 : S128x2048.Reduces [1] S128) (hφ : FKind.Formats .f32)
    (hacc : (0x00000000#32 : BitVec 32) = 0x00000000#32) (hc1 : S128.ShapeCasts S1x128) (hr2 : S1x128.Reduces [1] S1)
    (hc2 : S1.ShapeCasts S1x1) (hp : ∀ a, (![0, 0] : Fin 2 → ℕ) a < S1x1.size a) :
    extractAt ![0, 0]
        (shapeCast S1x1
          (multiReduction (F := Ideal) .add [1] S1
            (shapeCast S1x128 (multiReduction (F := Ideal) .add [1] S128 w 0x00000000#32 hr1 hφ hacc) hc1) 0x00000000#32 hr2 hφ hacc)
          hc2) hp
      = ∑ q : Fin 128, ∑ k : Fin 2048, w (ix2 q k) := by
  have e : (fun a => (⟨(![0, 0] : Fin 2 → ℕ) a, hp a⟩ : Fin (S1x1.size a))) = ix2 (0 : Fin 1) (0 : Fin 1) := by
    funext a
    match a with
    | ⟨0, _⟩ => rfl
    | ⟨1, _⟩ => rfl
  unfold extractAt
  refine (congrArg _ e).trans ?_
  refine (shapeCast_a_1a_apply _ hc2 (0 : Fin 1) (0 : Fin 1)).trans ?_
  refine (rowSum_apply _ hr2 hφ hacc (0 : Fin 1)).trans ?_
  refine Finset.sum_congr rfl fun q _ => ?_
  refine (shapeCast_a_1a_apply _ hc1 (0 : Fin 1) q).trans ?_
  exact rowSum_apply w hr1 hφ hacc q

/-- Lane 0 of the stored row is the first total. -/
theorem lane0_apply (a b z : EReal) (hi : S1x1x128.Iotas .tc 32 [2]) :
    select (cmpi .eq (iota .tc S1x1x128 32 [2] hi) (broadcast S1x1x128 0#32)) (broadcast S1x1x128 a)
        (select (cmpi .eq (iota .tc S1x1x128 32 [2] hi) (broadcast S1x1x128 1#32)) (broadcast S1x1x128 b) (broadcast S1x1x128 z))
        (ix3 (0 : Fin 1) (0 : Fin 1) (0 : Fin 128))
      = a := by
  refine (select_apply _ _ _ _).trans ?_
  have h : cmpi .eq (iota .tc S1x1x128 32 [2] hi) (broadcast S1x1x128 0#32) (ix3 (0 : Fin 1) (0 : Fin 1) (0 : Fin 128)) = 1#1 := by
    show IntOp.cmpi .eq (iota .tc S1x1x128 32 [2] hi (ix3 (0 : Fin 1) (0 : Fin 1) (0 : Fin 128))) 0#32 = 1#1
    rw [iota_single_apply]
    rfl
  rw [h]
  exact select_one _ _

/-- Lane 1 of the stored row is the second total. -/
theorem lane1_apply (a b z : EReal) (hi : S1x1x128.Iotas .tc 32 [2]) :
    select (cmpi .eq (iota .tc S1x1x128 32 [2] hi) (broadcast S1x1x128 0#32)) (broadcast S1x1x128 a)
        (select (cmpi .eq (iota .tc S1x1x128 32 [2] hi) (broadcast S1x1x128 1#32)) (broadcast S1x1x128 b) (broadcast S1x1x128 z))
        (ix3 (0 : Fin 1) (0 : Fin 1) (1 : Fin 128))
      = b := by
  refine (select_apply _ _ _ _).trans ?_
  have h0 : cmpi .eq (iota .tc S1x1x128 32 [2] hi) (broadcast S1x1x128 0#32) (ix3 (0 : Fin 1) (0 : Fin 1) (1 : Fin 128)) = 0#1 := by
    show IntOp.cmpi .eq (iota .tc S1x1x128 32 [2] hi (ix3 (0 : Fin 1) (0 : Fin 1) (1 : Fin 128))) 0#32 = 0#1
    rw [iota_single_apply]
    rfl
  rw [h0]
  refine (select_zero _ _).trans ?_
  refine (select_apply _ _ _ _).trans ?_
  have h1 : cmpi .eq (iota .tc S1x1x128 32 [2] hi) (broadcast S1x1x128 1#32) (ix3 (0 : Fin 1) (0 : Fin 1) (1 : Fin 128)) = 1#1 := by
    show IntOp.cmpi .eq (iota .tc S1x1x128 32 [2] hi (ix3 (0 : Fin 1) (0 : Fin 1) (1 : Fin 128))) 1#32 = 1#1
    rw [iota_single_apply]
    rfl
  rw [h1]
  exact select_one _ _

/-- Lane 0 of the stored row, from the values the row is computed from: the sum over the pairs of the pair's term. -/
theorem pay1_lane0 (v10 : FVec Ideal S128 .f32) (v13 : FVec Ideal S2048 .f32) (v56 v76 : FVec Ideal S128x2048 .f32)
    (v79 : IVec S128x2048 32) :
    k0_pay1 (F := Ideal) v10 v13 v56 v76 v79 (ix3 (0 : Fin 1) (0 : Fin 1) (0 : Fin 128))
      = ∑ q : Fin 128, ∑ k : Fin 2048,
          kterm (v10 (ix1 q)) (v13 (ix1 k)) (v56 (ix2 q k)) (v76 (ix2 q k)) (v79 (ix2 q k)) := by
  unfold k0_pay1
  refine (lane0_apply _ _ _ _).trans ?_
  refine (total_apply _ _ _ _ _ _ _ _).trans ?_
  refine Finset.sum_congr rfl fun q _ => Finset.sum_congr rfl fun k _ => ?_
  refine (mulf_apply _ _ _).trans ?_
  exact congrArg (fun t : EReal => _ * t) (maskProd_apply v10 v13 _ _ _ _ q k)

/-- Lane 1 of the stored row: the sum over the pairs of the masks' product. -/
theorem pay1_lane1 (v10 : FVec Ideal S128 .f32) (v13 : FVec Ideal S2048 .f32) (v56 v76 : FVec Ideal S128x2048 .f32)
    (v79 : IVec S128x2048 32) :
    k0_pay1 (F := Ideal) v10 v13 v56 v76 v79 (ix3 (0 : Fin 1) (0 : Fin 1) (1 : Fin 128))
      = ∑ q : Fin 128, ∑ k : Fin 2048, v10 (ix1 q) * v13 (ix1 k) := by
  unfold k0_pay1
  refine (lane1_apply _ _ _ _).trans ?_
  refine (total_apply _ _ _ _ _ _ _ _).trans ?_
  exact Finset.sum_congr rfl fun q _ => Finset.sum_congr rfl fun k _ => maskProd_apply v10 v13 _ _ _ _ q k

/-! ## The stored row's two lanes -/

/-- Lane 0 of the row one grid point stores: the sum of the pair losses over the tile's queries and all keys. -/
theorem outv_lane0 (x0 : Vec Ideal S1x128x512 .f32) (x1 : Vec Ideal S1x2048x512 .f32) (x2 : Vec Ideal S1x128x3 .f32)
    (x3 : Vec Ideal S1x2048x3 .f32) (x4 : Vec Ideal S1x128x1 .f32) (x5 : Vec Ideal S1x2048x1 .f32) :
    Cert.KernelIdeal.Hand.outv (F := Ideal) x0 x1 x2 x3 x4 x5 (ix3 (0 : Fin 1) (0 : Fin 1) (0 : Fin 128))
      = ∑ q : Fin 128, ∑ k : Fin 2048,
          Cert.Distance.pairLoss (fun d : Fin 512 => x0 (ix3 (0 : Fin 1) q d)) (fun d : Fin 512 => x1 (ix3 (0 : Fin 1) k d))
            (fun d : Fin 3 => x2 (ix3 (0 : Fin 1) q d)) (fun d : Fin 3 => x3 (ix3 (0 : Fin 1) k d))
            (x4 (ix3 (0 : Fin 1) q (0 : Fin 1))) (x5 (ix3 (0 : Fin 1) k (0 : Fin 1))) := by
  unfold Cert.KernelIdeal.Hand.outv
  refine (pay1_lane0 _ _ _ _ _).trans ?_
  refine Finset.sum_congr rfl fun q _ => Finset.sum_congr rfl fun k _ => ?_
  have hc : (fun d : Fin 3 => k0_pay2 (F := Ideal) x2 (ix2 q d)) = fun d : Fin 3 => x2 (ix3 (0 : Fin 1) q d) :=
    funext fun d => pay2_apply x2 q d
  have hk : (fun d : Fin 3 => k0_pay3 (F := Ideal) x3 (ix2 k d)) = fun d : Fin 3 => x3 (ix3 (0 : Fin 1) k d) :=
    funext fun d => pay3_apply x3 k d
  rw [pay4_apply, pay5_apply,
    pay10_apply (k0_pay7 (F := Ideal) x1) (k0_pay8 (F := Ideal) x0 x1) (k0_pay9 (F := Ideal) x0)
      (unitRow fun d => x0 (ix3 (0 : Fin 1) q d)) (unitRow fun d => x1 (ix3 (0 : Fin 1) k d)) q k
      (fun d => pay7_apply x1 k d) (pay8_apply x0 x1 q k) (fun d => pay9_apply x0 q d),
    pay12_apply, pay13_apply, hc, hk]
  exact kterm_eq _ _ _ _ _ _

/-- Lane 1 of the row one grid point stores: the sum of the mask products over the tile's queries and all keys. -/
theorem outv_lane1 (x0 : Vec Ideal S1x128x512 .f32) (x1 : Vec Ideal S1x2048x512 .f32) (x2 : Vec Ideal S1x128x3 .f32)
    (x3 : Vec Ideal S1x2048x3 .f32) (x4 : Vec Ideal S1x128x1 .f32) (x5 : Vec Ideal S1x2048x1 .f32) :
    Cert.KernelIdeal.Hand.outv (F := Ideal) x0 x1 x2 x3 x4 x5 (ix3 (0 : Fin 1) (0 : Fin 1) (1 : Fin 128))
      = ∑ q : Fin 128, ∑ k : Fin 2048,
          Cert.Distance.pairMask (x4 (ix3 (0 : Fin 1) q (0 : Fin 1))) (x5 (ix3 (0 : Fin 1) k (0 : Fin 1))) := by
  unfold Cert.KernelIdeal.Hand.outv
  refine (pay1_lane1 _ _ _ _ _).trans ?_
  refine Finset.sum_congr rfl fun q _ => Finset.sum_congr rfl fun k _ => ?_
  rw [pay4_apply, pay5_apply]
  exact mul_comm _ _

end Cert.KernelIdeal.TileValue

end
-- ==== Proof.TailValue.lean ====
/-
  What the program makes of the 128 stored rows, read as two plain sums, and the regrouping of a sum over
  (row tile, row in tile) pairs into a sum over (batch entry, row) pairs.
-/
import proofs.«105830_j14474039787802_1_alg».proof.Proof.PayloadIdeal
import proofs.«105830_j14474039787802_1_alg».proof.Proof.Spec
import Idealize.ShloMosaic.Lib.Pipeline.Value
import Idealize.ShloMosaic.Lib.ValueIdx
import Idealize.ShloMosaic.PureOps.Ideal.Laws
import Mathlib.Algebra.BigOperators.Group.Finset.Defs
import Mathlib.Data.Fintype.BigOperators

noncomputable section

namespace Cert.KernelIdeal.TailValue

open Idealize.ShloMosaic Idealize.ShloMosaic.ValueIdx Cert.KernelIdeal

/-! ## The tail of the program at an index -/

/-- A rank-1 index is its one coordinate. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Lane `c` of the 128 rows, sliced out, flattened to a vector of length 128 and summed from zero, is the plain sum
    over the rows `t` of the array at (t, 0, c): the sum into a rank-zero result runs over every index of the vector,
    the initial word is the real zero, the flattening keeps the row-major position (t·1 + 0)·1 + 0 = t, and the slice
    shifts the last coordinate by `c`. -/
theorem laneSum (o : (⟨S128x1x128, .f32⟩ : BufTy).Contents (Elt Ideal)) (c : Fin 128)
    (hs : S128x1x128.Slices ![0, 0, c.val] S128x1x1) (i : S_.Idx) :
    Host.reduceAdd (F := Ideal)
        (shapeCast S128 (extractStridedSlice S128x1x1 ![0, 0, c.val] o hs) Facts₀.shapeCasts_S128x1x1_S128)
        (constant S_ .f32 0x00000000#32) Facts₀.reducesTo_S128_S_d0 Facts₀.h_S_ i
      = ∑ t : Fin 128, o (ix3 t (0 : Fin 1) c) := by
  simp only [Host.reduceAdd, Ideal.hostReduceAdd_def]
  rw [Ideal.hostReduceAdd_total Facts₀.reducesTo_S128_S_d0 (fun b => b.elim0)]
  rw [constant_apply, Ideal.ofBits_zero_f32, zero_add, sum_idx1]
  refine Finset.sum_congr rfl fun t _ => ?_
  refine (shapeCast_apply _ Facts₀.shapeCasts_S128x1x1_S128 _ (ix3 t (0 : Fin 1) (0 : Fin 1)) ?_).trans ?_
  · rw [Shape.rowMajor_val_three, Shape.rowMajor_val_one]
    show ((t.val * 1 + 0) * 1 + 0) = t.val
    omega
  · refine extractStridedSlice_apply _ o hs _ (ix3 t (0 : Fin 1) c) fun a => ?_
    match a with
    | ⟨0, _⟩ => show t.val = 0 + t.val; omega
    | ⟨1, _⟩ => show 0 = 0 + 0; rfl
    | ⟨2, _⟩ => show c.val = c.val + 0; rfl

/-- The program's result: lane 0 summed over the rows, divided by lane 1 summed over the rows plus the constant. -/
theorem tailFn_apply (o : (⟨S128x1x128, .f32⟩ : BufTy).Contents (Elt Ideal)) (i : S_.Idx) :
    Cert.KernelIdeal.Hand.tailFn (F := Ideal) o i
      = Ideal.div (∑ t : Fin 128, o (ix3 t (0 : Fin 1) (0 : Fin 128)))
          ((∑ t : Fin 128, o (ix3 t (0 : Fin 1) (1 : Fin 128))) + Cert.Distance.tiny) := by
  have h0 := laneSum o 0 Facts₀.slices_S128x1x128_S128x1x1_0_0_0 i
  have h1 := laneSum o 1 Facts₀.slices_S128x1x128_S128x1x1_0_0_1 i
  unfold Cert.KernelIdeal.Hand.tailFn
  exact congrArg₂ Ideal.div h0 (congrArg (· + Cert.Distance.tiny) h1)

/-! ## Regrouping the grid's sum -/

/-- Grid point `t` of 128 handles rows (t % 16)·128 … (t % 16)·128 + 127 of batch entry t / 16, so
    (t, q) ↦ (t / 16, (t % 16)·128 + q) matches the pairs (grid point, row in tile) with the pairs (batch entry, row);
    its inverse is (b, n) ↦ (16 b + n / 128, n % 128). -/
def tileEquiv : Fin 128 × Fin 128 ≃ Fin 8 × Fin 2048 where
  toFun p := (⟨p.1.val / 16, by have := p.1.isLt; omega⟩, ⟨(p.1.val % 16) * 128 + p.2.val, by have := p.2.isLt; omega⟩)
  invFun p := (⟨p.1.val * 16 + p.2.val / 128, by have := p.1.isLt; have := p.2.isLt; omega⟩,
    ⟨p.2.val % 128, by omega⟩)
  left_inv := by
    rintro ⟨t, q⟩
    refine Prod.ext (Fin.ext ?_) (Fin.ext ?_)
    · show t.val / 16 * 16 + (t.val % 16 * 128 + q.val) / 128 = t.val
      have := q.isLt; omega
    · show (t.val % 16 * 128 + q.val) % 128 = q.val
      have := q.isLt; omega
  right_inv := by
    rintro ⟨b, n⟩
    refine Prod.ext (Fin.ext ?_) (Fin.ext ?_)
    · show (b.val * 16 + n.val / 128) / 16 = b.val
      have := n.isLt; omega
    · show (b.val * 16 + n.val / 128) % 16 * 128 + n.val % 128 = n.val
      have := n.isLt; omega

/-- The sum over grid points, rows of the tile and keys is the sum over batch entries, rows and keys: both double outer
    sums are sums over pairs, and the pairs correspond under `tileEquiv` with equal terms. -/
theorem regroup (f : Fin 8 → Fin 2048 → Fin 2048 → EReal) :
    (∑ t : Fin 128, ∑ q : Fin 128, ∑ k : Fin 2048,
        f ⟨t.val / 16, by have := t.isLt; omega⟩ ⟨(t.val % 16) * 128 + q.val, by have := q.isLt; omega⟩ k)
      = ∑ b : Fin 8, ∑ n : Fin 2048, ∑ m : Fin 2048, f b n m := by
  calc (∑ t : Fin 128, ∑ q : Fin 128, ∑ k : Fin 2048,
          f ⟨t.val / 16, by have := t.isLt; omega⟩ ⟨(t.val % 16) * 128 + q.val, by have := q.isLt; omega⟩ k)
      = ∑ p : Fin 128 × Fin 128, ∑ k : Fin 2048, f (tileEquiv p).1 (tileEquiv p).2 k :=
        (Fintype.sum_prod_type' (fun (t : Fin 128) (q : Fin 128) => ∑ k : Fin 2048,
          f ⟨t.val / 16, by have := t.isLt; omega⟩ ⟨(t.val % 16) * 128 + q.val, by have := q.isLt; omega⟩ k)).symm
    _ = ∑ p : Fin 8 × Fin 2048, ∑ m : Fin 2048, f p.1 p.2 m :=
        Fintype.sum_equiv tileEquiv _ _ (fun _ => rfl)
    _ = ∑ b : Fin 8, ∑ n : Fin 2048, ∑ m : Fin 2048, f b n m :=
        Fintype.sum_prod_type' (fun b n => ∑ m : Fin 2048, f b n m)

end Cert.KernelIdeal.TailValue

end
-- ==== Proof.ArrValue.lean ====
/-
  The array of stored rows after the region: row t of it is the row grid point t stored (the 128 points write 128 disjoint rows that cover the array).
-/
import proofs.«105830_j14474039787802_1_alg».proof.Proof.TileIdeal
import Idealize.ShloMosaic.Lib.ValueIdx
import Idealize.ShloMosaic.Lib.Pipeline.Value

noncomputable section

namespace Cert.KernelIdeal.ArrValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ)

/-- The zero offsets of a rank-3 block, as the constant function. -/
theorem hz3 : (![0, 0, 0] : Fin 3 → Nat) = fun _ => 0 :=
  funext fun a => match a with | ⟨0, _⟩ => rfl | ⟨1, _⟩ => rfl | ⟨2, _⟩ => rfl

/-- The output window's printed index map, decided over the grid: point `t`'s block index is (t, 0, 0). -/
theorem idx6 : ∀ t : Fin cfg0.N, win0_6.index t (0 : Fin 3) = t.val ∧ win0_6.index t (1 : Fin 3) = 0
    ∧ win0_6.index t (2 : Fin 3) = 0 :=
  (by decide +kernel : ∀ t : Fin grid0.N, _)

/-- The output buffer after the body at point `t` is the row the point stores: the one store covers the whole row,
    and each load reads its whole block. -/
theorem after6_eq (c : Dev nD) (t : Fin cfg0.N) : (dats m 0 c).after 6 t = tileRow m c t := by
  rw [after0_6]
  unfold out6
  rw [View.canon_unit_zero hz3]
  simp only [View.ld_unit_zero (S := S1x128x512) hz3, View.ld_unit_zero (S := S1x2048x512) hz3,
    View.ld_unit_zero (S := S1x128x3) hz3, View.ld_unit_zero (S := S1x2048x3) hz3,
    View.ld_unit_zero (S := S1x128x1) hz3, View.ld_unit_zero (S := S1x2048x1) hz3]
  rfl

/-- The stored row read at equal points and equal lanes. -/
theorem tileRow_congr (c : Dev nD) {t t' : Fin cfg0.N} (ht : t = t') {j j' : S1x1x128.Idx} (hj : j = j') :
    tileRow m c t j = tileRow m c t' j' := by subst ht; subst hj; rfl

/-- The whole output array as one function: row `i 0` holds the row point number `i 0` stores, lane by lane. -/
abbrev G6 (c : Dev nD) : S128x1x128.Idx → Elt F .f32 := fun i =>
  tileRow m c (pt (i 0).val (i 0).isLt) (ix3 (0 : Fin 1) (0 : Fin 1) (i 2))

/-- What point `t` writes back is block `t` of that function: the block is row `t` of the array (its first coordinate
    t·1 + 0, its last 0·128 + the lane), and a row's index is (0, 0, lane). -/
theorem flushed6_eq (c : Dev nD) (t : Fin cfg0.N) :
    (dats m 0 c).flushed 6 t = ((cfg0.win 6).blk t).view.read (Elt F) (G6 m c) := by
  show (cfg0.win 6).cut (grid0.coords t) ((dats m 0 c).after 6 t) = _
  rw [after6_eq]
  obtain ⟨e0, e1, e2⟩ := idx6 t
  funext j
  show tileRow m c t j = G6 m c (((cfg0.win 6).blk t).view.emb j)
  refine tileRow_congr m c (Fin.ext ?_) (funext fun a => Fin.ext ?_)
  · show t.val = win0_6.index t (0 : Fin 3) * 1 + 1 * (j 0).val
    have hj : (j 0).val < 1 := (j 0).isLt
    omega
  · match a with
    | ⟨0, _⟩ => show (j 0).val = 0; have hj : (j 0).val < 1 := (j 0).isLt; omega
    | ⟨1, _⟩ => show (j 1).val = 0; have hj : (j 1).val < 1 := (j 1).isLt; omega
    | ⟨2, _⟩ => show (j 2).val = win0_6.index t (2 : Fin 3) * 128 + 1 * (j 2).val; omega

/-- An index of the array is in point `t`'s block iff each coordinate is in the block's range on its axis. -/
theorem mem_blk6 (t : Fin cfg0.N) (i : S128x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v1).slice (win0_6.rect t)).set ↔ _
  rw [View.set_slice_whole, Rect.mem_set_unit]
  exact Iff.rfl

/-- Every index of the array is in the block of the point numbered by its first coordinate. -/
theorem cover6_arr (i : S128x1x128.Idx) :
    ∃ t : Fin cfg0.N, (cfg0.win 6).flush t = true ∧ i ∈ ((cfg0.win 6).blk t).view.set := by
  have hi0 : (i 0).val < 128 := (i 0).isLt
  have hi1 : (i 1).val < 1 := (i 1).isLt
  have hi2 : (i 2).val < 128 := (i 2).isLt
  refine ⟨pt (i 0).val hi0, flush0_6 _, ?_⟩
  obtain ⟨e0, e1, e2⟩ := idx6 (pt (i 0).val hi0)
  rw [pt_val] at e0
  rw [mem_blk6]
  intro a
  match a with
  | ⟨0, _⟩ => show win0_6.index (pt (i 0).val hi0) (0 : Fin 3) * 1 ≤ (i 0).val ∧ (i 0).val < win0_6.index (pt (i 0).val hi0) (0 : Fin 3) * 1 + 1; omega
  | ⟨1, _⟩ => show win0_6.index (pt (i 0).val hi0) (1 : Fin 3) * 1 ≤ (i 1).val ∧ (i 1).val < win0_6.index (pt (i 0).val hi0) (1 : Fin 3) * 1 + 1; omega
  | ⟨2, _⟩ => show win0_6.index (pt (i 0).val hi0) (2 : Fin 3) * 128 ≤ (i 2).val ∧ (i 2).val < win0_6.index (pt (i 0).val hi0) (2 : Fin 3) * 128 + 128; omega

/-- So the array ends holding that function. -/
theorem arr6_eq (c : Dev nD) : (dats m 0 c).arrAt 6 cfg0.N = G6 m c :=
  (dats m 0 c).arrAt_eq_of_cover 6 (G6 m c) (fun t _ => flushed6_eq m c t) cover6_arr

/-- Row `t`, lane `l` of the output array after every write-back is lane `l` of the row point `t` stored. -/
theorem final6 (c : Dev nD) (t : Fin 128) (l : Fin 128) :
    (dats m 0 c).arrAt 6 cfg0.N (ix3 t (0 : Fin 1) l) = tileRow m c (pt t.val t.isLt) (ix3 (0 : Fin 1) (0 : Fin 1) l) := by
  rw [arr6_eq]

end Cert.KernelIdeal.ArrValue

end
-- ==== Proof.Blocks.lean ====
/-
  The six input blocks of grid point t = (b, j), b = t / 16, j = t % 16, read off the argument arrays: the query tile is rows j·128 … j·128+127 of batch entry b, the key block all 2048 rows of batch entry b; the mask column is the mask broadcast along a unit axis by the host line before the region.
-/
import proofs.«105830_j14474039787802_1_alg».proof.Proof.TileIdeal
import proofs.«105830_j14474039787802_1_alg».proof.Proof.LaunchIdeal
import Idealize.ShloMosaic.Lib.StableHlo.Run
import Idealize.ShloMosaic.Lib.ValueIdx
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ)

/-! ## The printed index maps, decided once over the grid -/

/-- The query tile of the embeddings: block index `(t / 16, t % 16, 0)`. -/
theorem index_qe : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)

/-- The key block of the embeddings: block index `(t / 16, 0, 0)`. -/
theorem index_ke : ∀ t : Fin cfg0.N, win0_1.index t (0 : Fin 3) = t.val / 16 ∧ win0_1.index t (1 : Fin 3) = 0
    ∧ win0_1.index t (2 : Fin 3) = 0 :=
  (by decide +kernel : ∀ t : Fin grid0.N, _)

/-- The query tile of the coordinates: block index `(t / 16, t % 16, 0)`. -/
theorem index_qc : ∀ t : Fin cfg0.N, win0_2.index t (0 : Fin 3) = t.val / 16 ∧ win0_2.index t (1 : Fin 3) = t.val % 16
    ∧ win0_2.index t (2 : Fin 3) = 0 :=
  (by decide +kernel : ∀ t : Fin grid0.N, _)

/-- The key block of the coordinates: block index `(t / 16, 0, 0)`. -/
theorem index_kc : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- The query tile of the mask column: block index `(t / 16, t % 16, 0)`. -/
theorem index_qm : ∀ t : Fin cfg0.N, win0_4.index t (0 : Fin 3) = t.val / 16 ∧ win0_4.index t (1 : Fin 3) = t.val % 16
    ∧ win0_4.index t (2 : Fin 3) = 0 :=
  (by decide +kernel : ∀ t : Fin grid0.N, _)

/-- The key block of the mask column: block index `(t / 16, 0, 0)`. -/
theorem index_km : ∀ t : Fin cfg0.N, win0_5.index t (0 : Fin 3) = t.val / 16 ∧ win0_5.index t (1 : Fin 3) = 0
    ∧ win0_5.index t (2 : Fin 3) = 0 :=
  (by decide +kernel : ∀ t : Fin grid0.N, _)

/-! ## The mask column as the region finds it -/

/-- The host line before the region leaves the mask broadcast along a unit axis in the column array. -/
theorem V_col (c : Dev nD) :
    V m c main_v0 = broadcastInDim S8x2048x1 ![0, 1] bcast_S8x2048_S8x2048x1_0_1 (m ((c : Thread nD τ).loc main_arg2)) := by
  show StableHlo.after hostOps0 (fun b => m (c, b)) (Proc.devRef .tc main_v0) = _
  after_results

/-- The column at `(b, r, 0)` is the mask at `(b, r)`. -/
theorem V_col_apply (c : Dev nD) (b : Fin 8) (r : Fin 2048) :
    V m c main_v0 (ix3 b r (0 : Fin 1)) = m ((c : Thread nD τ).loc main_arg2) (ix2 b r) := by
  rw [V_col]
  exact broadcastInDim_apply _ bcast_S8x2048_S8x2048x1_0_1 _ (ix3 b r (0 : Fin 1)) (ix2 b r) (fun a => match a with
    | ⟨0, _⟩ => by show b.val = if (8 : Nat) = 1 then 0 else b.val; rw [if_neg (by decide)]
    | ⟨1, _⟩ => by show r.val = if (2048 : Nat) = 1 then 0 else r.val; rw [if_neg (by decide)])

/-! ## The six blocks: an element of a block sits in its array, on each axis, at block index × block size + its own
coordinate -/

theorem blk_qe (c : Dev nD) (t : Fin 128) (q : Fin 128) (d : Fin 512) :
    iblk m c 0 (pt t.val t.isLt) (ix3 (0 : Fin 1) q d)
      = m ((c : Thread nD τ).loc main_arg0) (ix3 (⟨t.val / 16, by have := t.isLt; omega⟩ : Fin 8) (⟨(t.val % 16) * 128 + q.val, by have := t.isLt; have := q.isLt; omega⟩ : Fin 2048) d) := by
  obtain ⟨e0, e1, e2⟩ := index_qe (pt t.val t.isLt)
  rw [pt_val] at e0 e1
  show V m c main_arg0 (((cfg0.win 0).blk (pt t.val t.isLt)).view.emb (ix3 (0 : Fin 1) q d)) = _
  rw [V_arg m c main_arg0 (by decide)]
  refine congrArg (m ((c : Thread nD τ).loc main_arg0)) ?_
  funext a; apply Fin.ext
  match a with
  | ⟨0, _⟩ => show win0_0.index (pt t.val t.isLt) (0 : Fin 3) * 1 + 1 * 0 = t.val / 16; omega
  | ⟨1, _⟩ => show win0_0.index (pt t.val t.isLt) (1 : Fin 3) * 128 + 1 * q.val = (t.val % 16) * 128 + q.val; omega
  | ⟨2, _⟩ => show win0_0.index (pt t.val t.isLt) (2 : Fin 3) * 512 + 1 * d.val = d.val; omega
theorem blk_ke (c : Dev nD) (t : Fin 128) (k : Fin 2048) (d : Fin 512) :
    iblk m c 1 (pt t.val t.isLt) (ix3 (0 : Fin 1) k d)
      = m ((c : Thread nD τ).loc main_arg0) (ix3 (⟨t.val / 16, by have := t.isLt; omega⟩ : Fin 8) k d) := by
  obtain ⟨e0, e1, e2⟩ := index_ke (pt t.val t.isLt)
  rw [pt_val] at e0
  show V m c main_arg0 (((cfg0.win 1).blk (pt t.val t.isLt)).view.emb (ix3 (0 : Fin 1) k d)) = _
  rw [V_arg m c main_arg0 (by decide)]
  refine congrArg (m ((c : Thread nD τ).loc main_arg0)) ?_
  funext a; apply Fin.ext
  match a with
  | ⟨0, _⟩ => show win0_1.index (pt t.val t.isLt) (0 : Fin 3) * 1 + 1 * 0 = t.val / 16; omega
  | ⟨1, _⟩ => show win0_1.index (pt t.val t.isLt) (1 : Fin 3) * 2048 + 1 * k.val = k.val; omega
  | ⟨2, _⟩ => show win0_1.index (pt t.val t.isLt) (2 : Fin 3) * 512 + 1 * d.val = d.val; omega
theorem blk_qc (c : Dev nD) (t : Fin 128) (q : Fin 128) (d : Fin 3) :
    iblk m c 2 (pt t.val t.isLt) (ix3 (0 : Fin 1) q d)
      = m ((c : Thread nD τ).loc main_arg1) (ix3 (⟨t.val / 16, by have := t.isLt; omega⟩ : Fin 8) (⟨(t.val % 16) * 128 + q.val, by have := t.isLt; have := q.isLt; omega⟩ : Fin 2048) d) := by
  obtain ⟨e0, e1, e2⟩ := index_qc (pt t.val t.isLt)
  rw [pt_val] at e0 e1
  show V m c main_arg1 (((cfg0.win 2).blk (pt t.val t.isLt)).view.emb (ix3 (0 : Fin 1) q d)) = _
  rw [V_arg m c main_arg1 (by decide)]
  refine congrArg (m ((c : Thread nD τ).loc main_arg1)) ?_
  funext a; apply Fin.ext
  match a with
  | ⟨0, _⟩ => show win0_2.index (pt t.val t.isLt) (0 : Fin 3) * 1 + 1 * 0 = t.val / 16; omega
  | ⟨1, _⟩ => show win0_2.index (pt t.val t.isLt) (1 : Fin 3) * 128 + 1 * q.val = (t.val % 16) * 128 + q.val; omega
  | ⟨2, _⟩ => show win0_2.index (pt t.val t.isLt) (2 : Fin 3) * 3 + 1 * d.val = d.val; omega
theorem blk_kc (c : Dev nD) (t : Fin 128) (k : Fin 2048) (d : Fin 3) :
    iblk m c 3 (pt t.val t.isLt) (ix3 (0 : Fin 1) k d)
      = m ((c : Thread nD τ).loc main_arg1) (ix3 (⟨t.val / 16, by have := t.isLt; omega⟩ : Fin 8) k d) := by
  obtain ⟨e0, e1, e2⟩ := index_kc (pt t.val t.isLt)
  rw [pt_val] at e0
  show V m c main_arg1 (((cfg0.win 3).blk (pt t.val t.isLt)).view.emb (ix3 (0 : Fin 1) k d)) = _
  rw [V_arg m c main_arg1 (by decide)]
  refine congrArg (m ((c : Thread nD τ).loc main_arg1)) ?_
  funext a; apply Fin.ext
  match a with
  | ⟨0, _⟩ => show win0_3.index (pt t.val t.isLt) (0 : Fin 3) * 1 + 1 * 0 = t.val / 16; omega
  | ⟨1, _⟩ => show win0_3.index (pt t.val t.isLt) (1 : Fin 3) * 2048 + 1 * k.val = k.val; omega
  | ⟨2, _⟩ => show win0_3.index (pt t.val t.isLt) (2 : Fin 3) * 3 + 1 * d.val = d.val; omega
theorem blk_qm (c : Dev nD) (t : Fin 128) (q : Fin 128) :
    iblk m c 4 (pt t.val t.isLt) (ix3 (0 : Fin 1) q (0 : Fin 1))
      = m ((c : Thread nD τ).loc main_arg2) (ix2 (⟨t.val / 16, by have := t.isLt; omega⟩ : Fin 8) (⟨(t.val % 16) * 128 + q.val, by have := t.isLt; have := q.isLt; omega⟩ : Fin 2048)) := by
  obtain ⟨e0, e1, e2⟩ := index_qm (pt t.val t.isLt)
  rw [pt_val] at e0 e1
  show V m c main_v0 (((cfg0.win 4).blk (pt t.val t.isLt)).view.emb (ix3 (0 : Fin 1) q (0 : Fin 1))) = _
  refine Eq.trans (congrArg (V m c main_v0) ?_) (V_col_apply m c _ _)
  funext a; apply Fin.ext
  match a with
  | ⟨0, _⟩ => show win0_4.index (pt t.val t.isLt) (0 : Fin 3) * 1 + 1 * 0 = t.val / 16; omega
  | ⟨1, _⟩ => show win0_4.index (pt t.val t.isLt) (1 : Fin 3) * 128 + 1 * q.val = (t.val % 16) * 128 + q.val; omega
  | ⟨2, _⟩ => show win0_4.index (pt t.val t.isLt) (2 : Fin 3) * 1 + 1 * 0 = 0; omega
theorem blk_km (c : Dev nD) (t : Fin 128) (k : Fin 2048) :
    iblk m c 5 (pt t.val t.isLt) (ix3 (0 : Fin 1) k (0 : Fin 1))
      = m ((c : Thread nD τ).loc main_arg2) (ix2 (⟨t.val / 16, by have := t.isLt; omega⟩ : Fin 8) k) := by
  obtain ⟨e0, e1, e2⟩ := index_km (pt t.val t.isLt)
  rw [pt_val] at e0
  show V m c main_v0 (((cfg0.win 5).blk (pt t.val t.isLt)).view.emb (ix3 (0 : Fin 1) k (0 : Fin 1))) = _
  refine Eq.trans (congrArg (V m c main_v0) ?_) (V_col_apply m c _ _)
  funext a; apply Fin.ext
  match a with
  | ⟨0, _⟩ => show win0_5.index (pt t.val t.isLt) (0 : Fin 3) * 1 + 1 * 0 = t.val / 16; omega
  | ⟨1, _⟩ => show win0_5.index (pt t.val t.isLt) (1 : Fin 3) * 2048 + 1 * k.val = k.val; omega
  | ⟨2, _⟩ => show win0_5.index (pt t.val t.isLt) (2 : Fin 3) * 1 + 1 * 0 = 0; omega

end Cert.KernelIdeal.Blocks

end
-- ==== Proof.KernelTotal.lean ====
/-
  The kernel's value at the ideal values: what the program makes of the array of the 128 stored rows is the total of
  the plain-row quantities over the three argument arrays.

  Row t of the array is the row grid point t stored; its lane 0 is the sum of the pair losses over the point's 128
  query rows and all 2048 key rows, its lane 1 the sum of the mask products; the point's blocks are rows of the
  argument arrays, point t = (t / 16, t % 16) holding query rows (t % 16)·128 … of batch entry t / 16 and every key row
  of that entry; and the sum over (point, row in tile, key) regroups to the sum over (batch entry, row, key).
-/
import proofs.«105830_j14474039787802_1_alg».proof.Proof.TileIdeal
import proofs.«105830_j14474039787802_1_alg».proof.Proof.Spec
import proofs.«105830_j14474039787802_1_alg».proof.Proof.TileValue
import proofs.«105830_j14474039787802_1_alg».proof.Proof.TailValue
import proofs.«105830_j14474039787802_1_alg».proof.Proof.ArrValue
import proofs.«105830_j14474039787802_1_alg».proof.Proof.Blocks

noncomputable section

namespace Cert.KernelIdeal.KernelTotal

open Idealize.ShloMosaic Idealize.ShloMosaic.TcCoe Idealize.ShloMosaic.ValueIdx Idealize.SL.Sem Cert.KernelIdeal Cert.KernelIdeal.Gen Cert.KernelIdeal.Hand

variable (mI : (ℓ : Loc nD τ sig) → Buf (Elt Ideal) ℓ)

/-- The embeddings the program is given on core `c`. -/
abbrev emb (c : Dev nD) : (⟨3, ![8, 2048, 512]⟩ : Shape).Idx → EReal := mI ((c : Thread nD τ).loc main_arg0)
/-- The coordinates. -/
abbrev crd (c : Dev nD) : (⟨3, ![8, 2048, 3]⟩ : Shape).Idx → EReal := mI ((c : Thread nD τ).loc main_arg1)
/-- The mask. -/
abbrev msk (c : Dev nD) : (⟨2, ![8, 2048]⟩ : Shape).Idx → EReal := mI ((c : Thread nD τ).loc main_arg2)

/-- The loss of the pair of rows `n`, `m` of batch entry `b`. -/
abbrev lossAt (c : Dev nD) (b : Fin 8) (n m : Fin 2048) : EReal :=
  Cert.Distance.pairLoss (Cert.Distance.row (emb mI c) b n) (Cert.Distance.row (emb mI c) b m)
    (Cert.Distance.row (crd mI c) b n) (Cert.Distance.row (crd mI c) b m) (msk mI c (ix2 b n)) (msk mI c (ix2 b m))

/-- The mask product of that pair. -/
abbrev maskAt (c : Dev nD) (b : Fin 8) (n m : Fin 2048) : EReal :=
  Cert.Distance.pairMask (msk mI c (ix2 b n)) (msk mI c (ix2 b m))

/-- The pair loss respects equal rows and masks. -/
theorem pairLoss_congr {eq eq' ek ek' : Fin 512 → EReal} {cq cq' ck ck' : Fin 3 → EReal} {mq mq' mk mk' : EReal}
    (h1 : eq = eq') (h2 : ek = ek') (h3 : cq = cq') (h4 : ck = ck') (h5 : mq = mq') (h6 : mk = mk') :
    Cert.Distance.pairLoss eq ek cq ck mq mk = Cert.Distance.pairLoss eq' ek' cq' ck' mq' mk' := by
  subst h1 h2 h3 h4 h5 h6
  rfl

/-- Lane 0 of the row grid point `t` stores: the sum, over the point's query rows and all key rows of its batch entry,
    of the pair's loss. -/
theorem tile_lane0 (c : Dev nD) (t : Fin 128) :
    tileRow mI c (pt t.val t.isLt) (ix3 (0 : Fin 1) (0 : Fin 1) (0 : Fin 128))
      = ∑ q : Fin 128, ∑ k : Fin 2048,
          lossAt mI c ⟨t.val / 16, by have := t.isLt; omega⟩ ⟨(t.val % 16) * 128 + q.val, by have := q.isLt; omega⟩ k := by
  unfold tileRow
  refine (TileValue.outv_lane0 (iblk mI c 0 (pt t.val t.isLt)) (iblk mI c 1 (pt t.val t.isLt)) (iblk mI c 2 (pt t.val t.isLt))
    (iblk mI c 3 (pt t.val t.isLt)) (iblk mI c 4 (pt t.val t.isLt)) (iblk mI c 5 (pt t.val t.isLt))).trans ?_
  refine Finset.sum_congr rfl fun q _ => Finset.sum_congr rfl fun k _ => ?_
  exact pairLoss_congr (funext fun d => Blocks.blk_qe mI c t q d) (funext fun d => Blocks.blk_ke mI c t k d)
    (funext fun d => Blocks.blk_qc mI c t q d) (funext fun d => Blocks.blk_kc mI c t k d)
    (Blocks.blk_qm mI c t q) (Blocks.blk_km mI c t k)

/-- Lane 1 of that row: the sum of the pairs' mask products. -/
theorem tile_lane1 (c : Dev nD) (t : Fin 128) :
    tileRow mI c (pt t.val t.isLt) (ix3 (0 : Fin 1) (0 : Fin 1) (1 : Fin 128))
      = ∑ q : Fin 128, ∑ k : Fin 2048,
          maskAt mI c ⟨t.val / 16, by have := t.isLt; omega⟩ ⟨(t.val % 16) * 128 + q.val, by have := q.isLt; omega⟩ k := by
  unfold tileRow
  refine (TileValue.outv_lane1 (iblk mI c 0 (pt t.val t.isLt)) (iblk mI c 1 (pt t.val t.isLt)) (iblk mI c 2 (pt t.val t.isLt))
    (iblk mI c 3 (pt t.val t.isLt)) (iblk mI c 4 (pt t.val t.isLt)) (iblk mI c 5 (pt t.val t.isLt))).trans ?_
  refine Finset.sum_congr rfl fun q _ => Finset.sum_congr rfl fun k _ => ?_
  exact congrArg₂ Cert.Distance.pairMask (Blocks.blk_qm mI c t q) (Blocks.blk_km mI c t k)

/-- The program's result from the array of stored rows is the total over the argument arrays. -/
theorem kernel_total (mI : (ℓ : Loc nD τ sig) → Buf (Elt Ideal) ℓ) (c : Dev nD) (i : S_.Idx) :
    tailFn (F := Ideal) ((dats mI 0 c).arrAt 6 cfg0.N) i
      = Cert.Distance.total (mI ((c : Thread nD τ).loc main_arg0)) (mI ((c : Thread nD τ).loc main_arg1)) (mI ((c : Thread nD τ).loc main_arg2)) := by
  refine (TailValue.tailFn_apply ((dats mI 0 c).arrAt 6 cfg0.N) i).trans ?_
  show Ideal.div _ _ = Ideal.div (Cert.Distance.lossSum (emb mI c) (crd mI c) (msk mI c)) (Cert.Distance.maskSum (msk mI c) + Cert.Distance.tiny)
  refine congrArg₂ Ideal.div ?_ (congrArg (· + Cert.Distance.tiny) ?_)
  · refine Eq.trans (Finset.sum_congr rfl fun t _ => (ArrValue.final6 mI c t (0 : Fin 128)).trans (tile_lane0 mI c t)) ?_
    exact TailValue.regroup (lossAt mI c)
  · refine Eq.trans (Finset.sum_congr rfl fun t _ => (ArrValue.final6 mI c t (1 : Fin 128)).trans (tile_lane1 mI c t)) ?_
    exact TailValue.regroup (maskAt mI c)

end Cert.KernelIdeal.KernelTotal

end
-- ==== Proof.lean ====
/-
  The pairwise-distance loss kernel against its reference: the proof of `Cert.Claim`.

  Both programs compute, over eight batch entries of 2048 points with a 512-dimensional embedding, a 3-dimensional
  coordinate and a mask each, the sum over all ordered pairs of points of one batch entry of
      [coordinate distance < 10] · (embedding distance of the unit-length rows − 1)₊ · mask · mask
  divided by the sum of the mask products plus a small constant (`Cert.Distance.total`, Proof/Spec.lean). The reference
  does it on whole [8, 2048, 2048] arrays; the kernel runs a grid of 8 × 16 points, each taking a tile of 128 query rows
  against all 2048 key rows of one batch entry, summing the tile's pair losses and mask products into two lanes of a row,
  and the program then adds the 128 rows' lanes up and divides. At the ideal values the two are the same number: the
  per-pair terms are the same function of the same rows (one mask product is taken in the other order), and the sums are
  the same sum grouped differently — the extended reals are a commutative monoid under addition, so no finiteness is
  needed.

  The frames: the kernel's windows read three arrays twice each (a query tile and the key rows of one array); each such
  array is held half and half by its two windows, split at the region's entry and joined at its exit (Proof/LaunchIdeal.lean,
  LaunchBits.lean; the body's triple and the proof data in Body*.lean, Data*.lean). The reference has no kernel: its frame is
  its run with the result dropped.
  The value: the array of stored rows row by row (Proof/ArrValue.lean), each row's two lanes as the tile's sums
  (Proof/TileValue.lean) of the blocks read off the arguments (Proof/Blocks.lean), the host lines and the regrouping of the sums
  (Proof/TailValue.lean), assembled in Proof/KernelTotal.lean; the reference's stages in Proof/RefValue.lean.
-/
import proofs.«105830_j14474039787802_1_alg».proof.Defs
import proofs.«105830_j14474039787802_1_alg».proof.Proof.Gen.Kernel
import proofs.«105830_j14474039787802_1_alg».proof.Proof.Gen.KernelIdeal
import proofs.«105830_j14474039787802_1_alg».proof.Proof.Gen.ReferenceIdeal
import proofs.«105830_j14474039787802_1_alg».proof.Proof.Gen.Pre_finite_inputs
import proofs.«105830_j14474039787802_1_alg».proof.Proof.LaunchBits
import proofs.«105830_j14474039787802_1_alg».proof.Proof.LaunchIdeal
import proofs.«105830_j14474039787802_1_alg».proof.Proof.RefRead
import proofs.«105830_j14474039787802_1_alg».proof.Proof.RefValue
import proofs.«105830_j14474039787802_1_alg».proof.Proof.KernelTotal
import Idealize.ShloMosaic.Adequacy
import Idealize.ShloMosaic.Init

noncomputable section

namespace Cert.Proof

open Idealize.ShloMosaic Idealize.SL.Sem

/-- The printed kernel runs to its end and leaves its arguments as launched. -/
theorem frame_k : Cert.frame_Kernel := fun m ρ _ =>
  (θ_run Cert.Kernel.defs _ _).mono (fun _ h c => (h c).2) (Cert.Kernel.Hand.run_main (F := Bits) m ρ)

/-- So does its reading at the ideal values. -/
theorem frame_ki : Cert.frame_KernelIdeal := fun m ρ _ =>
  (θ_run Cert.KernelIdeal.defs _ _).mono (fun _ h c => (h c).2) (Cert.KernelIdeal.Hand.run_main (F := Ideal) m ρ)

/-- The reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal values, from memories that agree on the arguments, both programs end with the specification's total in
    their result buffer. -/
theorem algebraic : Cert.algebraic_KernelIdeal_ReferenceIdeal := by
  intro m ρ m' ρ' _ hagree
  refine ⟨fun c => Cert.KernelIdeal.Hand.tailFn (F := Ideal) ((Cert.KernelIdeal.Hand.dats m 0 c).arrAt 6 Cert.KernelIdeal.cfg0.N),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq]
  funext i
  rw [Cert.ReferenceIdeal.RefValue.ref_total, (hagree c).1, (hagree c).2.1, (hagree c).2.2]
  exact (Cert.KernelIdeal.KernelTotal.kernel_total m c i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
